-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x3 : Shape := ⟨2, ![8192, 3]⟩
abbrev S3x8192 : Shape := ⟨2, ![3, 8192]⟩
abbrev S1x1 : Shape := ⟨2, ![1, 1]⟩
abbrev S2048x3 : Shape := ⟨2, ![2048, 3]⟩
abbrev S2048x1 : Shape := ⟨2, ![2048, 1]⟩
abbrev S1x8192 : Shape := ⟨2, ![1, 8192]⟩
abbrev S2048 : Shape := ⟨1, ![2048]⟩
abbrev S3x4096 : Shape := ⟨2, ![3, 4096]⟩
abbrev S4096 : Shape := ⟨1, ![4096]⟩
abbrev S1x4096 : Shape := ⟨2, ![1, 4096]⟩
abbrev S2048x4096 : Shape := ⟨2, ![2048, 4096]⟩
abbrev S1x2048x1 : Shape := ⟨3, ![1, 2048, 1]⟩
abbrev S1 : Shape := ⟨1, ![1]⟩
abbrev S1x1x1 : Shape := ⟨3, ![1, 1, 1]⟩
abbrev S1x1x8192 : Shape := ⟨3, ![1, 1, 8192]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S3x8192, .f32⟩
  | .hbm, ⟨3, _⟩ => ⟨S1x1, .f32⟩
  | .hbm, ⟨4, _⟩ => ⟨S_, .f32⟩
  | .local _ .vmem, ⟨0, _⟩ => ⟨S2048x3, .f32⟩
  | .local _ .vmem, ⟨1, _⟩ => ⟨S2048x3, .f32⟩
  | .local _ .vmem, ⟨2, _⟩ => ⟨S3x8192, .f32⟩
  | .local _ .vmem, ⟨3, _⟩ => ⟨S1x1, .f32⟩
  | .local _ .vmem, ⟨4, _⟩ => ⟨S2048x1, .f32⟩
  | .local _ .vmem, ⟨5, _⟩ => ⟨S1x8192, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def k0_cond7 (i : grid0.Coords) : BitVec 1 :=
  let arg0 : BitVec 32 := BitVec.ofNat 32 (i 0).val
  let c3_i32 : BitVec 32 := 3#32
  let v59 : BitVec 1 := Scalar.cmpi .eq arg0 c3_i32
  let v60 : BitVec 32 := Scalar.extui v59
  let c0_i32_25 : BitVec 32 := 0#32
  let v61 : BitVec 1 := Scalar.cmpi .ne v60 c0_i32_25
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S8192x3_S3x8192_1_0 : S8192x3.Transposes [1, 0] S3x8192
  inb_S2048x3_S2048x3_0_0 : ∀ a, (![0, 0] : Fin 2 → Nat) a + S2048x3.size a ≤ S2048x3.size a
  h_S2048x3 : 0 < S2048x3.numel
  reduces_S2048x3_S2048 : S2048x3.Reduces [1] S2048
  shapeCasts_S2048_S2048x1 : S2048.ShapeCasts S2048x1
  inb_S3x8192_S3x4096_0_0 : ∀ a, (![0, 0] : Fin 2 → Nat) a + S3x4096.size a ≤ S3x8192.size a
  h_S3x4096 : 0 < S3x4096.numel
  shapeCasts_S3x4096_S3x4096 : S3x4096.ShapeCasts S3x4096
  reduces_S3x4096_S4096 : S3x4096.Reduces [0] S4096
  shapeCasts_S4096_S1x4096 : S4096.ShapeCasts S1x4096
  broadcasts_S1x4096_S2048x4096 : S1x4096.Broadcasts S2048x4096
  broadcasts_S2048x1_S2048x4096 : S2048x1.Broadcasts S2048x4096
  reduces_S2048x4096_S2048 : S2048x4096.Reduces [1] S2048
  reduces_S2048x4096_S4096 : S2048x4096.Reduces [0] S4096
  inb_S1x8192_S1x4096_0_0 : ∀ a, (![0, 0] : Fin 2 → Nat) a + S1x4096.size a ≤ S1x8192.size a
  h_S1x4096 : 0 < S1x4096.numel
  shapeCasts_S1x4096_S1x4096 : S1x4096.ShapeCasts S1x4096
  inb_S3x8192_S3x4096_0_4096 : ∀ a, (![0, 4096] : Fin 2 → Nat) a + S3x4096.size a ≤ S3x8192.size a
  inb_S1x8192_S1x4096_0_4096 : ∀ a, (![0, 4096] : Fin 2 → Nat) a + S1x4096.size a ≤ S1x8192.size a
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x8192_S1x8192_0_0 : ∀ a, (![0, 0] : Fin 2 → Nat) a + S1x8192.size a ≤ S1x8192.size a
  h_S1x8192 : 0 < S1x8192.numel
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  shapeCasts_S1x8192_S1x1x8192 : S1x8192.ShapeCasts S1x1x8192
  reduces_S1x1x8192_S1 : S1x1x8192.Reduces [1, 2] S1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S2048x3_S3x4096_S2048x4096_1_0_0_1_n_n_wf : DotDims.WF S2048x3 S3x4096 S2048x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S8192x3.size a
  hwx0_0 : ∀ i : grid0.Coords, EltTy.bits .f32 = 32 ∨ (Rect.block (s := S8192x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x8192.size a
  hwx0_1 : ∀ i : grid0.Coords, EltTy.bits .f32 = 32 ∨ (Rect.block (s := S3x8192) S3x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S2048x3_S3x4096_S2048x4096_1_0_0_1_n_n : DotDims S2048x3 S3x4096 S2048x4096 where
  lhsContracting := [1]
  rhsContracting := [0]
  lhsNonContracting := [0]
  rhsNonContracting := [1]
  lhsBatch := []
  rhsBatch := []
  wf := dot_S2048x3_S3x4096_S2048x4096_1_0_0_1_n_n_wf

abbrev win0_0 : Pipeline.Window sig grid0 :=
  Pipeline.Window.ofSpec (Memref.whole main_arg1) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond7 i == 1#1) | ⟨_ + 3, h⟩ => absurd h (Nat.not_lt.2 (Nat.le_add_left _ _))

class Facts : Prop extends Facts₀ where

variable [Facts]
-- ==== ReferenceIdeal.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x3, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x3, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S3x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x3, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x3, .f32⟩
  | .hbm, ⟨30, _⟩ => ⟨S_, .f32⟩
  | .hbm, ⟨31, _⟩ => ⟨S8192, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S3x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.Spec.lean ====
/-
  The mathematics both programs compute, stated once over plain index functions on the extended reals.

  Two point clouds of 8192 points in three coordinates, `pred` and `real`. For a point `p` of one cloud its
  squared distance to a point `r` of the other is `|p|² + |r|² − 2·(p·r)`; it is clamped from below by a small
  positive constant, minimised over the other cloud, and the square root taken: the nearest-neighbour distance. The
  result is the sum of all 2·8192 nearest-neighbour distances divided by 16384.

  The reference computes exactly that, once per direction (`refTotal`). The kernel walks the rows (points of
  `pred`) in four tiles of 2048 and the columns (points of `real`) in two halves of 4096, forms
  `(−2·p)·r` and adds the two squared norms in a different order, takes the minima half by half and tile by
  tile, clamps after minimising, and adds the row distances tile by tile into 2048 partial sums (`kerTotal`).
  The tile-level functions (`tRow`, `tCol`, `tOut`) say what one grid step computes from the blocks it reads.
-/
import Idealize.ShloMosaic.PureOps.Ideal
import Idealize.ShloMosaic.Lib.ValueIdx

noncomputable section

namespace Cert.Spec

open Idealize.ShloMosaic Idealize.ShloMosaic.ValueIdx

/-! ## The literals, as the extended reals their words denote -/

/-- `2.0` -/
abbrev cTwo : EReal := Ideal.ofBits .f32 0x40000000#32
/-- `-2.0` -/
abbrev cNegTwo : EReal := Ideal.ofBits .f32 0xC0000000#32
/-- the clamp, `f32(1e-12)` -/
abbrev cEps : EReal := Ideal.ofBits .f32 0x2B8CBCCC#32
/-- `16384.0` -/
abbrev cN : EReal := Ideal.ofBits .f32 0x46800000#32
/-- `0.0` -/
abbrev cZero : EReal := Ideal.ofBits .f32 0x00000000#32
/-- `+inf`, the minimum's starting value -/
abbrev cInf : EReal := Ideal.ofBits .f32 0x7F800000#32

/-- A cloud: 8192 points, 3 coordinates. -/
abbrev Cloud : Type := (⟨2, ![8192, 3]⟩ : Shape).Idx → EReal

/-- `|x_i|²` -/
def sq (x : Cloud) (i : Fin 8192) : EReal := ∑ k : Fin 3, x (ix2 i k) * x (ix2 i k)
/-- `x_i · y_j` -/
def dot (x y : Cloud) (i j : Fin 8192) : EReal := ∑ k : Fin 3, x (ix2 i k) * y (ix2 j k)

/-! ## The reference -/

/-- The clamped squared distance from query point `i` to reference point `j`, as the reference adds it up. -/
def refD2 (q r : Cloud) (i j : Fin 8192) : EReal := max ((sq q i + sq r j) - cTwo * dot q r i j) cEps
/-- The nearest-neighbour distance of query point `i`. -/
def refNN (q r : Cloud) (i : Fin 8192) : EReal :=
  Ideal.sqrt ((Finset.univ : Finset (Fin 8192)).fold min cInf fun j => refD2 q r i j)
/-- The average symmetric distance as the reference computes it. -/
def refTotal (real pred : Cloud) : EReal :=
  Ideal.div ((cZero + ∑ i : Fin 8192, refNN pred real i) + (cZero + ∑ j : Fin 8192, refNN real pred j)) cN

/-! ## The kernel, over whole clouds -/

/-- Row `k` of tile `t`. -/
def rowIx (t : Fin 4) (k : Fin 2048) : Fin 8192 := ⟨2048 * t.val + k.val, by have := t.isLt; have := k.isLt; omega⟩
/-- Column `l` of half `h`. -/
def colIx (h : Fin 2) (l : Fin 4096) : Fin 8192 := ⟨4096 * h.val + l.val, by have := h.isLt; have := l.isLt; omega⟩

/-- `(−2·p_i)·r_j`, the product the kernel's matrix unit forms. -/
def cross (pred real : Cloud) (i j : Fin 8192) : EReal := ∑ k : Fin 3, (cNegTwo * pred (ix2 i k)) * real (ix2 j k)

/-- Row `i`'s minimum over one half of the columns. -/
def kerRowHalf (pred real : Cloud) (i : Fin 8192) (h : Fin 2) : EReal :=
  (Finset.univ : Finset (Fin 4096)).fold min cInf fun l => cross pred real i (colIx h l) + sq real (colIx h l)
/-- Row `i`'s nearest-neighbour distance as the kernel forms it. -/
def kerRow (pred real : Cloud) (i : Fin 8192) : EReal :=
  Ideal.sqrt (max (min (kerRowHalf pred real i 0) (kerRowHalf pred real i 1) + sq pred i) cEps)
/-- Column `j`'s minimum over the rows of tile `t`, with the column's norm added. -/
def kerColTile (pred real : Cloud) (t : Fin 4) (j : Fin 8192) : EReal :=
  ((Finset.univ : Finset (Fin 2048)).fold min cInf fun k => cross pred real (rowIx t k) j + sq pred (rowIx t k)) + sq real j
/-- Column `j`'s nearest-neighbour distance as the kernel forms it: the running minimum over the four tiles. -/
def kerCol (pred real : Cloud) (j : Fin 8192) : EReal :=
  Ideal.sqrt (max (min (min (min (kerColTile pred real 0 j) (kerColTile pred real 1 j)) (kerColTile pred real 2 j))
    (kerColTile pred real 3 j)) cEps)
/-- Partial sum `k` of the row distances: one row of each tile, added in tile order. -/
def kerAcc (pred real : Cloud) (k : Fin 2048) : EReal :=
  ((kerRow pred real (rowIx 0 k) + kerRow pred real (rowIx 1 k)) + kerRow pred real (rowIx 2 k)) + kerRow pred real (rowIx 3 k)
/-- The average symmetric distance as the kernel computes it. -/
def kerTotal (real pred : Cloud) : EReal :=
  Ideal.div ((∑ k : Fin 2048, kerAcc pred real k) + ∑ j : Fin 8192, kerCol pred real j) cN

/-! ## One grid step, over the blocks it reads -/

/-- A tile of rows of `pred`. -/
abbrev RowBlk : Type := (⟨2, ![2048, 3]⟩ : Shape).Idx → EReal
/-- A half of the columns of the transposed `real`. -/
abbrev ColBlk : Type := (⟨2, ![3, 4096]⟩ : Shape).Idx → EReal

def tSq0 (x0 : RowBlk) (k : Fin 2048) : EReal := ∑ c : Fin 3, x0 (ix2 k c) * x0 (ix2 k c)
def tSq1 (x : ColBlk) (l : Fin 4096) : EReal := ∑ c : Fin 3, x (ix2 c l) * x (ix2 c l)
def tCross (x0 : RowBlk) (x : ColBlk) (k : Fin 2048) (l : Fin 4096) : EReal :=
  ∑ c : Fin 3, (cNegTwo * x0 (ix2 k c)) * x (ix2 c l)
/-- Row `k` of the tile: its minimum over one half of the columns. -/
def tRowHalf (x0 : RowBlk) (x : ColBlk) (k : Fin 2048) : EReal :=
  (Finset.univ : Finset (Fin 4096)).fold min cInf fun l => tCross x0 x k l + tSq1 x l
/-- Row `k` of the tile: its nearest-neighbour distance. -/
def tRow (x0 : RowBlk) (xL xR : ColBlk) (k : Fin 2048) : EReal :=
  Ideal.sqrt (max (min (tRowHalf x0 xL k) (tRowHalf x0 xR k) + tSq0 x0 k) cEps)
/-- Column `l` of a half: its minimum over the tile's rows, with the column's norm added. -/
def tCol (x0 : RowBlk) (x : ColBlk) (l : Fin 4096) : EReal :=
  ((Finset.univ : Finset (Fin 2048)).fold min cInf fun k => tCross x0 x k l + tSq0 x0 k) + tSq1 x l
/-- The last step's result from the two accumulators. -/
def tOut (s1 : (⟨2, ![1, 8192]⟩ : Shape).Idx → EReal) (s0 : (⟨2, ![2048, 1]⟩ : Shape).Idx → EReal) : EReal :=
  Ideal.div ((∑ k : Fin 2048, s0 (ix2 k (0 : Fin 1))) + ∑ j : Fin 8192, Ideal.sqrt (max (s1 (ix2 (0 : Fin 1) j)) cEps)) cN

end Cert.Spec

end
-- ==== Proof.SpecTile.lean ====
/-
  One grid step's functions of its blocks are the whole-cloud functions at the step's rows and columns, once a block
  is known to be the cloud read at the tile's rows (or the transposed cloud at the half's columns).
-/
import proofs.«143169_g26491358282344_cont_9to1_1100_12_alg».proof.Proof.Spec

noncomputable section

namespace Cert.Spec

open Idealize.ShloMosaic Idealize.ShloMosaic.ValueIdx

variable (pred real : Cloud) (t : Fin 4) (h : Fin 2) (x0 : RowBlk) (x : ColBlk)
  (h0 : ∀ (k : Fin 2048) (c : Fin 3), x0 (ix2 k c) = pred (ix2 (rowIx t k) c))
  (hx : ∀ (c : Fin 3) (l : Fin 4096), x (ix2 c l) = real (ix2 (colIx h l) c))

include h0 in
theorem tSq0_eq (k : Fin 2048) : tSq0 x0 k = sq pred (rowIx t k) := by
  unfold tSq0 sq; exact Finset.sum_congr rfl fun c _ => by rw [h0]

include hx in
theorem tSq1_eq (l : Fin 4096) : tSq1 x l = sq real (colIx h l) := by
  unfold tSq1 sq; exact Finset.sum_congr rfl fun c _ => by rw [hx]

include h0 hx in
theorem tCross_eq (k : Fin 2048) (l : Fin 4096) : tCross x0 x k l = cross pred real (rowIx t k) (colIx h l) := by
  unfold tCross cross; exact Finset.sum_congr rfl fun c _ => by rw [h0, hx]

include h0 hx in
theorem tRowHalf_eq (k : Fin 2048) : tRowHalf x0 x k = kerRowHalf pred real (rowIx t k) h := by
  unfold tRowHalf kerRowHalf
  exact congrArg (fun f => Finset.fold min cInf f Finset.univ) (funext fun l => by
    rw [tCross_eq pred real t h x0 x h0 hx, tSq1_eq real h x hx])

include h0 hx in
/-- A half's column minimum over the tile's rows is the cloud's column minimum over tile `t`. -/
theorem tCol_eq (l : Fin 4096) : tCol x0 x l = kerColTile pred real t (colIx h l) := by
  unfold tCol kerColTile
  rw [tSq1_eq real h x hx]
  exact congrArg (· + sq real (colIx h l)) (congrArg (fun f => Finset.fold min cInf f Finset.univ) (funext fun k => by
    rw [tCross_eq pred real t h x0 x h0 hx, tSq0_eq pred t x0 h0]))

/-- A tile's row distance is the cloud's row distance at the tile's row. -/
theorem tRow_eq (xL xR : ColBlk)
    (h0 : ∀ (k : Fin 2048) (c : Fin 3), x0 (ix2 k c) = pred (ix2 (rowIx t k) c))
    (hL : ∀ (c : Fin 3) (l : Fin 4096), xL (ix2 c l) = real (ix2 (colIx 0 l) c))
    (hR : ∀ (c : Fin 3) (l : Fin 4096), xR (ix2 c l) = real (ix2 (colIx 1 l) c)) (k : Fin 2048) :
    tRow x0 xL xR k = kerRow pred real (rowIx t k) := by
  unfold tRow kerRow
  rw [tRowHalf_eq pred real t 0 x0 xL h0 hL, tRowHalf_eq pred real t 1 x0 xR h0 hR, tSq0_eq pred t x0 h0]

/-- Every column is in one of the two halves. -/
theorem exists_colIx (j : Fin 8192) : ∃ (h : Fin 2) (l : Fin 4096), j = colIx h l := by
  by_cases hj : j.val < 4096
  · exact ⟨0, ⟨j.val, hj⟩, Fin.ext (by show j.val = 4096 * 0 + j.val; omega)⟩
  · exact ⟨1, ⟨j.val - 4096, by have := j.isLt; omega⟩, Fin.ext (by show j.val = 4096 * 1 + (j.val - 4096); omega)⟩

end Cert.Spec

end
-- ==== Proof.KBlocks.lean ====
/-
  What the two input windows hold at a grid step: window 0 the step's 2048 rows of `pred`, window 1 the whole
  transposed `real` (its block never moves), which the host line before the call wrote.
-/
import proofs.«143169_g26491358282344_cont_9to1_1100_12_alg».proof.Proof.Gen.KernelIdeal.Frame
import proofs.«143169_g26491358282344_cont_9to1_1100_12_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

/-- The clouds as the program is launched with them. -/
abbrev pred (c : Dev nD) : Cloud := m ((c : Thread nD τ).loc main_arg1)
abbrev real (c : Dev nD) : Cloud := m ((c : Thread nD τ).loc main_arg0)

/-- The step's blocks, typed by their literal shapes. -/
abbrev X0 (c : Dev nD) (t : Fin cfg0.N) : Vec Ideal S2048x3 .f32 := iblk m c 0 t
abbrev X1 (c : Dev nD) (t : Fin cfg0.N) : Vec Ideal S3x8192 .f32 := iblk m c 1 t

/-- The host line before the call: the second window's array is `real` transposed. -/
theorem V_main_v0 (c : Dev nD) :
    (V m c main_v0 : S3x8192.Idx → EReal) = transpose S3x8192 [1, 0] (real m c) transposes_S8192x3_S3x8192_1_0 := by
  show StableHlo.after hostOps0 (fun b => m (c, b)) (Proc.devRef .tc main_v0) = _
  after_results

/-- Window 0's block at step `t` is `pred` at rows `2048·t + k`. -/
theorem blk0 (c : Dev nD) (t : Fin cfg0.N) (tt : Fin 4) (ht : t.val = tt.val) (k : Fin 2048) (d : Fin 3) :
    X0 m c t (ix2 k d) = pred m c (ix2 (rowIx tt k) d) := by
  have hi : win0_0.index t 0 = t.val ∧ win0_0.index t 1 = 0 := by
    rcases fin_N0 t with rfl | rfl | rfl | rfl <;> decide
  unfold X0 iblk
  rw [View.read_apply]
  show V m c main_arg1 _ = _
  rw [V_main_arg1]
  refine congrArg (m ((c : Thread nD τ).loc main_arg1)) (funext fun a => Fin.ext ?_)
  match a with
  | ⟨0, _⟩ => show win0_0.index t 0 * 2048 + 1 * k.val = 2048 * tt.val + k.val; rw [hi.1, ht]; omega
  | ⟨1, _⟩ => show win0_0.index t 1 * 3 + 1 * d.val = d.val; rw [hi.2]; omega

/-- Window 1's block at every step is the transposed `real`: entry `(d, j)` is coordinate `d` of point `j`. -/
theorem blk1 (c : Dev nD) (t : Fin cfg0.N) (d : Fin 3) (j : Fin 8192) :
    X1 m c t (ix2 d j) = real m c (ix2 j d) := by
  have hi : win0_1.index t 0 = 0 ∧ win0_1.index t 1 = 0 := by
    rcases fin_N0 t with rfl | rfl | rfl | rfl <;> decide
  unfold X1 iblk
  rw [View.read_apply]
  show V m c main_v0 _ = _
  rw [V_main_v0]
  refine Eq.trans (congrArg _ (funext fun a => Fin.ext ?_)) (transpose_ix2_apply (real m c) transposes_S8192x3_S3x8192_1_0 d j)
  match a with
  | ⟨0, _⟩ => show win0_1.index t 0 * 3 + 1 * d.val = d.val; rw [hi.1]; omega
  | ⟨1, _⟩ => show win0_1.index t 1 * 8192 + 1 * j.val = j.val; rw [hi.2]; omega

end Cert.KernelIdeal.KValue

end
-- ==== Proof.KPieces.lean ====
/-
  What one grid step leaves in the two accumulators and in the result block, read off the step's stores.

  A step reads its tile of `pred` rows (`x0`), the two halves of the transposed `real` (`ldL x1`, `ldR x1`) and,
  after the first step, the accumulators as the step before left them (`xs0`, `xs1`). It stores the row accumulator
  whole, the column accumulator as two halves side by side (`join`), and, in the last step, the one result word
  computed from the two accumulators it has just stored.
-/
import proofs.«143169_g26491358282344_cont_9to1_1100_12_alg».proof.Proof.Gen.KernelIdeal.Frame
import proofs.«143169_g26491358282344_cont_9to1_1100_12_alg».proof.Proof.Spec
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen Cert.Spec

variable {F : FTy → Type} [FloatOps F]

theorem hz : (![0, 0] : Fin 2 → Nat) = fun _ => 0 := funext fun a => by fin_cases a <;> rfl

/-! ## The halves -/

/-- The left and right halves of the columns, as a load through the half's rectangle reads them. -/
abbrev ldL (x1 : Vec F S3x8192 .f32) : Vec F S3x4096 .f32 :=
  View.ld x1 (Rect.unit (s := S3x8192) ![0, 0] S3x4096.size inb_S3x8192_S3x4096_0_0)
abbrev ldR (x1 : Vec F S3x8192 .f32) : Vec F S3x4096 .f32 :=
  View.ld x1 (Rect.unit (s := S3x8192) ![0, 4096] S3x4096.size inb_S3x8192_S3x4096_0_4096)
/-- The two halves of the column accumulator, likewise. -/
abbrev sdL (xs1 : Vec F S1x8192 .f32) : Vec F S1x4096 .f32 :=
  View.ld xs1 (Rect.unit (s := S1x8192) ![0, 0] S1x4096.size inb_S1x8192_S1x4096_0_0)
abbrev sdR (xs1 : Vec F S1x8192 .f32) : Vec F S1x4096 .f32 :=
  View.ld xs1 (Rect.unit (s := S1x8192) ![0, 4096] S1x4096.size inb_S1x8192_S1x4096_0_4096)

theorem ldL_apply (x1 : Vec F S3x8192 .f32) (c : Fin 3) (l : Fin 4096) : ldL x1 (ix2 c l) = x1 (ix2 c (colIx 0 l)) :=
  congrArg x1 (funext fun a => Fin.ext (by
    match a with
    | ⟨0, _⟩ => show 0 + 1 * c.val = c.val; omega
    | ⟨1, _⟩ => show 0 + 1 * l.val = 4096 * 0 + l.val; omega))
theorem ldR_apply (x1 : Vec F S3x8192 .f32) (c : Fin 3) (l : Fin 4096) : ldR x1 (ix2 c l) = x1 (ix2 c (colIx 1 l)) :=
  congrArg x1 (funext fun a => Fin.ext (by
    match a with
    | ⟨0, _⟩ => show 0 + 1 * c.val = c.val; omega
    | ⟨1, _⟩ => show 4096 + 1 * l.val = 4096 * 1 + l.val; omega))
theorem sdL_apply (xs1 : Vec F S1x8192 .f32) (l : Fin 4096) : sdL xs1 (ix2 (0 : Fin 1) l) = xs1 (ix2 (0 : Fin 1) (colIx 0 l)) :=
  congrArg xs1 (funext fun a => Fin.ext (by
    match a with
    | ⟨0, _⟩ => rfl
    | ⟨1, _⟩ => show 0 + 1 * l.val = 4096 * 0 + l.val; omega))
theorem sdR_apply (xs1 : Vec F S1x8192 .f32) (l : Fin 4096) : sdR xs1 (ix2 (0 : Fin 1) l) = xs1 (ix2 (0 : Fin 1) (colIx 1 l)) :=
  congrArg xs1 (funext fun a => Fin.ext (by
    match a with
    | ⟨0, _⟩ => rfl
    | ⟨1, _⟩ => show 4096 + 1 * l.val = 4096 * 1 + l.val; omega))

/-- Two halves stored side by side: the right half last. -/
def join (L R : Vec F S1x4096 .f32) : Vec F S1x8192 .f32 :=
  View.canon [(⟨Rect.unit (s := S1x8192) ![0, 4096] S1x4096.size inb_S1x8192_S1x4096_0_4096, R⟩ : View.Piece (Elt F) S1x8192 .f32),
    ⟨Rect.unit (s := S1x8192) ![0, 0] S1x4096.size inb_S1x8192_S1x4096_0_0, L⟩]

theorem join_hi (L R : Vec F S1x4096 .f32) (l : Fin 4096) : join L R (ix2 (0 : Fin 1) (colIx 1 l)) = R (ix2 (0 : Fin 1) l) := by
  have e := View.canon_cons_emb (Val := Elt F) (Rect.unit (s := S1x8192) ![0, 4096] S1x4096.size inb_S1x8192_S1x4096_0_4096) R
    [⟨Rect.unit (s := S1x8192) ![0, 0] S1x4096.size inb_S1x8192_S1x4096_0_0, L⟩] (ix2 (0 : Fin 1) l)
  refine Eq.trans (congrArg (join L R) (funext fun a => Fin.ext ?_)) e
  match a with
  | ⟨0, _⟩ => rfl
  | ⟨1, _⟩ => show 4096 * 1 + l.val = 4096 + 1 * l.val; omega

theorem join_lo (L R : Vec F S1x4096 .f32) (l : Fin 4096) : join L R (ix2 (0 : Fin 1) (colIx 0 l)) = L (ix2 (0 : Fin 1) l) := by
  unfold join
  rw [View.canon_cons_of_not_mem _ _ (by
    rw [Rect.mem_set_unit]
    intro h
    have h1 := (h 1).1
    have : (4096 : Nat) ≤ 4096 * 0 + l.val := h1
    have := l.isLt
    omega)]
  have e := View.canon_cons_emb (Val := Elt F) (Rect.unit (s := S1x8192) ![0, 0] S1x4096.size inb_S1x8192_S1x4096_0_0) L [] (ix2 (0 : Fin 1) l)
  refine Eq.trans (congrArg _ (funext fun a => Fin.ext ?_)) e
  match a with
  | ⟨0, _⟩ => rfl
  | ⟨1, _⟩ => show 4096 * 0 + l.val = 0 + 1 * l.val; omega

/-! ## The first step -/

theorem sA0 (c : Dev nD) (i : grid0.Coords) (a1 : Memref sig .tc .vmem S2048x3 .f32) (h1 : a1.IsWhole) (a2 : Memref sig .tc .vmem S3x8192 .f32) (h2 : a2.IsWhole) (a3 : Memref sig .tc .vmem S1x1 .f32) (h3 : a3.IsWhole) (a4 : Memref sig .tc .vmem S2048x1 .f32) (h4 : a4.IsWhole) (a5 : Memref sig .tc .vmem S1x8192 .f32) (h5 : a5.IsWhole) (hc0 : cond0_0 i) (hc1 : ¬cond0_1 i) (hc2 : cond0_2 i) (hc3 : ¬cond0_3 i) (hc4 : cond0_4 i) (hc5 : ¬cond0_5 i) (hc6 : ¬cond0_6 i) (x0 : Vec F S2048x3 .f32) (x1 : Vec F S3x8192 .f32) :
    sout0_A_0 c i a1 h1 a2 h2 a3 h3 a4 h4 a5 h5 hc0 hc1 hc2 hc3 hc4 hc5 hc6 x0 x1 = k0_pay5 (k0_pay8 x0) (k0_pay13 x0 (ldL x1)) (k0_pay21 x0 (ldR x1)) := by
  unfold sout0_A_0
  rw [View.read_writes_eq_canon _ _ _ (scover0_A_0 c i a1 h1 a2 h2 a3 h3 a4 h4 a5 h5 hc0 hc1 hc2 hc3 hc4 hc5 hc6 x0 x1)]
  unfold kernelRun0_A
  dsimp only
  sl_unfold_words
  rw [View.canon_unit_zero hz]
  simp only [View.readAt_eq_ld, h1.read_unread, h2.read_unread, View.ld_unit_zero (S := S2048x3) hz]

theorem sA1 (c : Dev nD) (i : grid0.Coords) (a1 : Memref sig .tc .vmem S2048x3 .f32) (h1 : a1.IsWhole) (a2 : Memref sig .tc .vmem S3x8192 .f32) (h2 : a2.IsWhole) (a3 : Memref sig .tc .vmem S1x1 .f32) (h3 : a3.IsWhole) (a4 : Memref sig .tc .vmem S2048x1 .f32) (h4 : a4.IsWhole) (a5 : Memref sig .tc .vmem S1x8192 .f32) (h5 : a5.IsWhole) (hc0 : cond0_0 i) (hc1 : ¬cond0_1 i) (hc2 : cond0_2 i) (hc3 : ¬cond0_3 i) (hc4 : cond0_4 i) (hc5 : ¬cond0_5 i) (hc6 : ¬cond0_6 i) (x0 : Vec F S2048x3 .f32) (x1 : Vec F S3x8192 .f32) :
    sout0_A_1 c i a1 h1 a2 h2 a3 h3 a4 h4 a5 h5 hc0 hc1 hc2 hc3 hc4 hc5 hc6 x0 x1
      = join (k0_pay15 x0 (ldL x1)) (k0_pay2 (k0_pay18 (ldR x1)) (k0_pay20 x0 (ldR x1))) := by
  unfold sout0_A_1
  rw [View.read_writes_eq_canon _ _ _ (scover0_A_1 c i a1 h1 a2 h2 a3 h3 a4 h4 a5 h5 hc0 hc1 hc2 hc3 hc4 hc5 hc6 x0 x1)]
  unfold kernelRun0_A
  dsimp only
  sl_unfold_words
  simp only [View.readAt_eq_ld, h1.read_unread, h2.read_unread, View.ld_unit_zero (S := S2048x3) hz]
  rfl

/-! ## The middle steps -/

theorem sB0 (c : Dev nD) (i : grid0.Coords) (a1 : Memref sig .tc .vmem S2048x3 .f32) (h1 : a1.IsWhole) (a2 : Memref sig .tc .vmem S3x8192 .f32) (h2 : a2.IsWhole) (a3 : Memref sig .tc .vmem S1x1 .f32) (h3 : a3.IsWhole) (a4 : Memref sig .tc .vmem S2048x1 .f32) (h4 : a4.IsWhole) (a5 : Memref sig .tc .vmem S1x8192 .f32) (h5 : a5.IsWhole) (hc0 : ¬cond0_0 i) (hc1 : cond0_1 i) (hc2 : ¬cond0_2 i) (hc3 : cond0_3 i) (hc4 : ¬cond0_4 i) (hc5 : cond0_5 i) (hc6 : ¬cond0_6 i) (x0 : Vec F S2048x3 .f32) (x1 : Vec F S3x8192 .f32) (xs0 : Vec F S2048x1 .f32) (xs1 : Vec F S1x8192 .f32) :
    sout0_B_0 c i a1 h1 a2 h2 a3 h3 a4 h4 a5 h5 hc0 hc1 hc2 hc3 hc4 hc5 hc6 x0 x1 xs0 xs1 = k0_pay6 (k0_pay8 x0) (k0_pay13 x0 (ldL x1)) (k0_pay21 x0 (ldR x1)) xs0 := by
  unfold sout0_B_0
  rw [View.read_writes_eq_canon _ _ _ (scover0_B_0 c i a1 h1 a2 h2 a3 h3 a4 h4 a5 h5 hc0 hc1 hc2 hc3 hc4 hc5 hc6 x0 x1 xs0 xs1)]
  unfold kernelRun0_B
  dsimp only
  sl_unfold_words
  rw [View.canon_unit_zero hz]
  simp only [View.readAt_eq_ld, h1.read_unread, h2.read_unread, h4.read_unread, View.ld_unit_zero (S := S2048x3) hz,
    View.ld_unit_zero (S := S2048x1) hz]

theorem sB1 (c : Dev nD) (i : grid0.Coords) (a1 : Memref sig .tc .vmem S2048x3 .f32) (h1 : a1.IsWhole) (a2 : Memref sig .tc .vmem S3x8192 .f32) (h2 : a2.IsWhole) (a3 : Memref sig .tc .vmem S1x1 .f32) (h3 : a3.IsWhole) (a4 : Memref sig .tc .vmem S2048x1 .f32) (h4 : a4.IsWhole) (a5 : Memref sig .tc .vmem S1x8192 .f32) (h5 : a5.IsWhole) (hc0 : ¬cond0_0 i) (hc1 : cond0_1 i) (hc2 : ¬cond0_2 i) (hc3 : cond0_3 i) (hc4 : ¬cond0_4 i) (hc5 : cond0_5 i) (hc6 : ¬cond0_6 i) (x0 : Vec F S2048x3 .f32) (x1 : Vec F S3x8192 .f32) (xs0 : Vec F S2048x1 .f32) (xs1 : Vec F S1x8192 .f32) :
    sout0_B_1 c i a1 h1 a2 h2 a3 h3 a4 h4 a5 h5 hc0 hc1 hc2 hc3 hc4 hc5 hc6 x0 x1 xs0 xs1
      = join (k0_pay16 x0 (ldL x1) (sdL xs1)) (k0_pay3 (k0_pay18 (ldR x1)) (k0_pay20 x0 (ldR x1)) (sdR xs1)) := by
  unfold sout0_B_1
  rw [View.read_writes_eq_canon _ _ _ (scover0_B_1 c i a1 h1 a2 h2 a3 h3 a4 h4 a5 h5 hc0 hc1 hc2 hc3 hc4 hc5 hc6 x0 x1 xs0 xs1)]
  unfold kernelRun0_B
  dsimp only
  sl_unfold_words
  simp only [View.readAt_eq_ld, h1.read_unread, h2.read_unread, h5.read_unread, View.ld_unit_zero (S := S2048x3) hz]
  rfl

/-! ## The last step -/

theorem sC0 (c : Dev nD) (i : grid0.Coords) (a1 : Memref sig .tc .vmem S2048x3 .f32) (h1 : a1.IsWhole) (a2 : Memref sig .tc .vmem S3x8192 .f32) (h2 : a2.IsWhole) (a3 : Memref sig .tc .vmem S1x1 .f32) (h3 : a3.IsWhole) (a4 : Memref sig .tc .vmem S2048x1 .f32) (h4 : a4.IsWhole) (a5 : Memref sig .tc .vmem S1x8192 .f32) (h5 : a5.IsWhole) (hc0 : ¬cond0_0 i) (hc1 : cond0_1 i) (hc2 : ¬cond0_2 i) (hc3 : cond0_3 i) (hc4 : ¬cond0_4 i) (hc5 : cond0_5 i) (hc6 : cond0_6 i) (x0 : Vec F S2048x3 .f32) (x1 : Vec F S3x8192 .f32) (xs0 : Vec F S2048x1 .f32) (xs1 : Vec F S1x8192 .f32) :
    sout0_C_0 c i a1 h1 a2 h2 a3 h3 a4 h4 a5 h5 hc0 hc1 hc2 hc3 hc4 hc5 hc6 x0 x1 xs0 xs1 = k0_pay6 (k0_pay8 x0) (k0_pay13 x0 (ldL x1)) (k0_pay21 x0 (ldR x1)) xs0 := by
  unfold sout0_C_0
  rw [View.read_writes_eq_canon _ _ _ (scover0_C_0 c i a1 h1 a2 h2 a3 h3 a4 h4 a5 h5 hc0 hc1 hc2 hc3 hc4 hc5 hc6 x0 x1 xs0 xs1)]
  unfold kernelRun0_C
  dsimp only
  sl_unfold_words
  rw [View.canon_unit_zero hz]
  simp only [View.readAt_eq_ld, h1.read_unread, h2.read_unread, h4.read_unread, View.ld_unit_zero (S := S2048x3) hz,
    View.ld_unit_zero (S := S2048x1) hz]

theorem sC1 (c : Dev nD) (i : grid0.Coords) (a1 : Memref sig .tc .vmem S2048x3 .f32) (h1 : a1.IsWhole) (a2 : Memref sig .tc .vmem S3x8192 .f32) (h2 : a2.IsWhole) (a3 : Memref sig .tc .vmem S1x1 .f32) (h3 : a3.IsWhole) (a4 : Memref sig .tc .vmem S2048x1 .f32) (h4 : a4.IsWhole) (a5 : Memref sig .tc .vmem S1x8192 .f32) (h5 : a5.IsWhole) (hc0 : ¬cond0_0 i) (hc1 : cond0_1 i) (hc2 : ¬cond0_2 i) (hc3 : cond0_3 i) (hc4 : ¬cond0_4 i) (hc5 : cond0_5 i) (hc6 : cond0_6 i) (x0 : Vec F S2048x3 .f32) (x1 : Vec F S3x8192 .f32) (xs0 : Vec F S2048x1 .f32) (xs1 : Vec F S1x8192 .f32) :
    sout0_C_1 c i a1 h1 a2 h2 a3 h3 a4 h4 a5 h5 hc0 hc1 hc2 hc3 hc4 hc5 hc6 x0 x1 xs0 xs1
      = join (k0_pay16 x0 (ldL x1) (sdL xs1)) (k0_pay3 (k0_pay18 (ldR x1)) (k0_pay20 x0 (ldR x1)) (sdR xs1)) := by
  unfold sout0_C_1
  rw [View.read_writes_eq_canon _ _ _ (scover0_C_1 c i a1 h1 a2 h2 a3 h3 a4 h4 a5 h5 hc0 hc1 hc2 hc3 hc4 hc5 hc6 x0 x1 xs0 xs1)]
  unfold kernelRun0_C
  dsimp only
  sl_unfold_words
  simp only [View.readAt_eq_ld, h1.read_unread, h2.read_unread, h5.read_unread, View.ld_unit_zero (S := S2048x3) hz]
  rfl

/-- The result word is computed from the accumulators as this step has just stored them. -/
theorem sC2 (c : Dev nD) (i : grid0.Coords) (a1 : Memref sig .tc .vmem S2048x3 .f32) (h1 : a1.IsWhole) (a2 : Memref sig .tc .vmem S3x8192 .f32) (h2 : a2.IsWhole) (a3 : Memref sig .tc .vmem S1x1 .f32) (h3 : a3.IsWhole) (a4 : Memref sig .tc .vmem S2048x1 .f32) (h4 : a4.IsWhole) (a5 : Memref sig .tc .vmem S1x8192 .f32) (h5 : a5.IsWhole) (hc0 : ¬cond0_0 i) (hc1 : cond0_1 i) (hc2 : ¬cond0_2 i) (hc3 : cond0_3 i) (hc4 : ¬cond0_4 i) (hc5 : cond0_5 i) (hc6 : cond0_6 i) (x0 : Vec F S2048x3 .f32) (x1 : Vec F S3x8192 .f32) (xs0 : Vec F S2048x1 .f32) (xs1 : Vec F S1x8192 .f32) :
    out0_C_2 c i a1 h1 a2 h2 a3 h3 a4 h4 a5 h5 hc0 hc1 hc2 hc3 hc4 hc5 hc6 x0 x1 xs0 xs1
      = k0_pay7 (join (k0_pay16 x0 (ldL x1) (sdL xs1)) (k0_pay3 (k0_pay18 (ldR x1)) (k0_pay20 x0 (ldR x1)) (sdR xs1)))
          (k0_pay6 (k0_pay8 x0) (k0_pay13 x0 (ldL x1)) (k0_pay21 x0 (ldR x1)) xs0) := by
  unfold out0_C_2
  rw [View.read_writes_eq_canon _ _ _ (cover0_C_2 c i a1 h1 a2 h2 a3 h3 a4 h4 a5 h5 hc0 hc1 hc2 hc3 hc4 hc5 hc6 x0 x1 xs0 xs1)]
  unfold kernelRun0_C
  dsimp only
  sl_unfold_words
  rw [View.canon_unit_zero hz, View.readCov_unit_zero (S := S2048x1) _ hz, View.readCov_eq_canon']
  simp only [View.readAt_eq_ld, h1.read_unread, h2.read_unread, h4.read_unread, h5.read_unread, View.ld_unit_zero (S := S2048x3) hz,
    View.ld_unit_zero (S := S2048x1) hz]
  refine congrArg (fun s => k0_pay7 s _) ?_
  exact View.ld_unit_zero (S := S1x8192) hz inb_S1x8192_S1x8192_0_0 (join _ _)

end Cert.KernelIdeal.Pieces

end
-- ==== Proof.Consts.lean ====
/-
  The float literals of the two programs as extended reals: zero, two, minus two, sixteen thousand three hundred
  eighty-four, and plus infinity, each read off its IEEE word once.
-/
import proofs.«143169_g26491358282344_cont_9to1_1100_12_alg».proof.Proof.Spec
import Idealize.ShloMosaic.PureOps.Ideal.Laws

noncomputable section

namespace Cert.Spec

open Idealize.ShloMosaic

theorem cZero_eq : cZero = 0 := Ideal.ofBits_zero_f32

theorem cTwo_eq : cTwo = ((2 : ℝ) : EReal) := by
  simp [Ideal.ofBits, Ideal.ieee, -EReal.coe_mul]; norm_num

theorem cNegTwo_eq : cNegTwo = ((-2 : ℝ) : EReal) := by
  simp [Ideal.ofBits, Ideal.ieee, -EReal.coe_mul]; norm_num

theorem cN_eq : cN = ((16384 : ℝ) : EReal) := by
  simp [Ideal.ofBits, Ideal.ieee, -EReal.coe_mul]; norm_num

theorem cInf_eq : cInf = ⊤ := by
  simp [Ideal.ofBits, Ideal.ieee]

end Cert.Spec

end
-- ==== Proof.PayBase.lean ====
/-
  The three ingredients of every squared distance in one grid step, read at an index at the ideal instance: the
  product `(−2·p)·r` the matrix unit forms, a row's squared norm, a column's squared norm; and the stores' payloads
  over the step's arithmetic (a cast to the same shape is the identity).
-/
import proofs.«143169_g26491358282344_cont_9to1_1100_12_alg».proof.Proof.Gen.KernelIdeal.Skeleton
import proofs.«143169_g26491358282344_cont_9to1_1100_12_alg».proof.Proof.Spec
import proofs.«143169_g26491358282344_cont_9to1_1100_12_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Cert.Spec

variable {F : FTy → Type} [FloatOps F]

/-! ## The stores' payloads over the step's arithmetic -/

theorem pay5_eq (v3 v17 : FVec F S2048x1 .f32) (v37 : FVec F S2048 .f32) : k0_pay5 v3 v17 v37 = k0_pay4 v3 v17 v37 := by
  unfold k0_pay5; exact shapeCast_self _ _
theorem pay6_eq (v3 v17 : FVec F S2048x1 .f32) (v37 : FVec F S2048 .f32) (v62 : Vec F S2048x1 .f32) :
    k0_pay6 v3 v17 v37 v62 = addf v62 (k0_pay4 v3 v17 v37) := by
  unfold k0_pay6; exact shapeCast_self _ _
theorem pay15_eq (v0 : Vec F S2048x3 .f32) (v6 : Vec F S3x4096 .f32) : k0_pay15 v0 v6 = k0_pay14 v0 v6 := by
  unfold k0_pay15; exact shapeCast_self _ _
theorem pay16_eq (v0 : Vec F S2048x3 .f32) (v6 : Vec F S3x4096 .f32) (v62 : Vec F S1x4096 .f32) :
    k0_pay16 v0 v6 v62 = minimumf v62 (k0_pay14 v0 v6) := by
  unfold k0_pay16; exact shapeCast_self _ _
theorem pay2_eq (v31 : FVec F S1x4096 .f32) (v36 : FVec F S2048x4096 .f32) : k0_pay2 v31 v36 = k0_pay1 v31 v36 := by
  unfold k0_pay2; exact shapeCast_self _ _
theorem pay3_eq (v31 : FVec F S1x4096 .f32) (v36 : FVec F S2048x4096 .f32) (v62 : Vec F S1x4096 .f32) :
    k0_pay3 v31 v36 v62 = minimumf v62 (k0_pay1 v31 v36) := by
  unfold k0_pay3; exact shapeCast_self _ _

/-! ## Layout and contraction lemmas at the step's literal shapes -/

/-- An `[a]` array cast to the column `[a, 1]` reads, at `(i, u)`, the operand at `i`, whatever the unit coordinate `u`:
    both indices have row-major position `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The left operand's row coordinate under the product's dimension numbers is the result's row. -/
theorem lhs_dot_0 (i : S2048x4096.Idx) (q : dot_S2048x3_S3x4096_S2048x4096_1_0_0_1_n_n.contr.Idx) :
    (dot_S2048x3_S3x4096_S2048x4096_1_0_0_1_n_n.lhsIdx i q 0).val = (i 0).val := by
  unfold DotDims.lhsIdx
  rw [dif_neg (show ¬(0 : Fin S2048x3.rank) ∈ dot_S2048x3_S3x4096_S2048x4096_1_0_0_1_n_n.lhsBatch by decide), dif_pos (show (0 : Fin S2048x3.rank) ∈ dot_S2048x3_S3x4096_S2048x4096_1_0_0_1_n_n.lhsNonContracting by decide)]
  rfl
/-- The left operand's column coordinate is the contraction coordinate. -/
theorem lhs_dot_1 (i : S2048x4096.Idx) (q : dot_S2048x3_S3x4096_S2048x4096_1_0_0_1_n_n.contr.Idx) :
    (dot_S2048x3_S3x4096_S2048x4096_1_0_0_1_n_n.lhsIdx i q 1).val = (q ⟨0, by decide⟩).val :=
  dot_S2048x3_S3x4096_S2048x4096_1_0_0_1_n_n.lhsIdx_val_of_single rfl i q
/-- The right operand's row coordinate is the contraction coordinate. -/
theorem rhs_dot_0 (i : S2048x4096.Idx) (q : dot_S2048x3_S3x4096_S2048x4096_1_0_0_1_n_n.contr.Idx) :
    (dot_S2048x3_S3x4096_S2048x4096_1_0_0_1_n_n.rhsIdx i q 0).val = (q ⟨0, by decide⟩).val :=
  dot_S2048x3_S3x4096_S2048x4096_1_0_0_1_n_n.rhsIdx_val_of_single rfl i q
/-- The right operand's column coordinate is the result's column. -/
theorem rhs_dot_1 (i : S2048x4096.Idx) (q : dot_S2048x3_S3x4096_S2048x4096_1_0_0_1_n_n.contr.Idx) :
    (dot_S2048x3_S3x4096_S2048x4096_1_0_0_1_n_n.rhsIdx i q 1).val = (i 1).val := by
  unfold DotDims.rhsIdx
  rw [dif_neg (show ¬(1 : Fin S3x4096.rank) ∈ dot_S2048x3_S3x4096_S2048x4096_1_0_0_1_n_n.rhsBatch by decide), dif_pos (show (1 : Fin S3x4096.rank) ∈ dot_S2048x3_S3x4096_S2048x4096_1_0_0_1_n_n.rhsNonContracting by decide)]
  rfl

/-- A `[2048, 3]` by `[3, 4096]` product into the zero accumulator, at (row `k`, column `l`): the sum over the
    three contraction coordinates `c` of the left operand at `(k, c)` times the right at `(c, l)`. -/
theorem matmul_zero_apply (a : FVec Ideal S2048x3 .f32) (b : FVec Ideal S3x4096 .f32) (k : Fin 2048) (l : Fin 4096) :
    matmul dot_S2048x3_S3x4096_S2048x4096_1_0_0_1_n_n none a b (constant S2048x4096 .f32 0x00000000#32) (ix2 k l)
      = ∑ c : Fin 3, a (ix2 k c) * b (ix2 c l) := by
  simp only [matmul]
  rw [Ideal.matmul_constant_zero_apply, ← Equiv.sum_comp (ValueIdx.contrEquiv1 dot_S2048x3_S3x4096_S2048x4096_1_0_0_1_n_n 3 rfl rfl).symm]
  refine Finset.sum_congr rfl fun c _ => ?_
  have hk := ValueIdx.contrEquiv1_symm_val dot_S2048x3_S3x4096_S2048x4096_1_0_0_1_n_n 3 rfl rfl c
  have el : dot_S2048x3_S3x4096_S2048x4096_1_0_0_1_n_n.lhsIdx (ix2 k l) ((ValueIdx.contrEquiv1 dot_S2048x3_S3x4096_S2048x4096_1_0_0_1_n_n 3 rfl rfl).symm c) = ix2 k c := funext fun ax => Fin.ext (by
    match ax with
    | ⟨0, _⟩ => exact lhs_dot_0 _ _
    | ⟨1, _⟩ => exact (lhs_dot_1 _ _).trans hk)
  have er : dot_S2048x3_S3x4096_S2048x4096_1_0_0_1_n_n.rhsIdx (ix2 k l) ((ValueIdx.contrEquiv1 dot_S2048x3_S3x4096_S2048x4096_1_0_0_1_n_n 3 rfl rfl).symm c) = ix2 c l := funext fun ax => Fin.ext (by
    match ax with
    | ⟨0, _⟩ => exact (rhs_dot_0 _ _).trans hk
    | ⟨1, _⟩ => exact rhs_dot_1 _ _)
  rw [el, er]

/-- The scaled tile at `(k, c)`: minus two times the tile's entry. -/
theorem pay9_apply (x0 : Vec Ideal S2048x3 .f32) (k : Fin 2048) (c : Fin 3) :
    k0_pay9 (F := Ideal) x0 (ix2 k c) = cNegTwo * x0 (ix2 k c) := rfl

/-- The lane sum over axis 1 of a `[2048, 3]` array at row `k`: the sum of the row's three entries. -/
theorem sum_axis1_apply (v : FVec Ideal S2048x3 .f32) (k : Fin 2048) :
    multiReduction .add [1] S2048 v 0x00000000#32 reduces_S2048x3_S2048 (.inl rfl) rfl (ix1 k) = ∑ c : Fin 3, v (ix2 k c) := by
  refine (Ideal.multiReduction_add_single v 0x00000000#32 reduces_S2048x3_S2048 (.inl rfl) rfl (ix1 k)).trans ?_
  refine Finset.sum_congr rfl fun c _ => congrArg v (funext fun ax => Fin.ext ?_)
  match ax with
  | ⟨0, _⟩ => rfl
  | ⟨1, _⟩ => rfl

/-- The sum over axis 0 of a `[3, 4096]` array at column `l`: the sum of the column's three entries. -/
theorem sum_axis0_apply (v : FVec Ideal S3x4096 .f32) (l : Fin 4096) :
    multiReduction .add [0] S4096 v 0x00000000#32 reduces_S3x4096_S4096 (.inl rfl) rfl (ix1 l) = ∑ c : Fin 3, v (ix2 c l) := by
  refine (Ideal.multiReduction_add_single v 0x00000000#32 reduces_S3x4096_S4096 (.inl rfl) rfl (ix1 l)).trans ?_
  refine Finset.sum_congr rfl fun c _ => congrArg v (funext fun ax => Fin.ext ?_)
  match ax with
  | ⟨0, _⟩ => rfl
  | ⟨1, _⟩ => rfl

/-! ## The ingredients at an index, at the ideal instance -/

/-- The matrix product of the scaled tile with a half of the columns, at (row `k`, column `l`). -/
theorem cross_left (x0 : Vec Ideal S2048x3 .f32) (x : Vec Ideal S3x4096 .f32) (k : Fin 2048) (l : Fin 4096) :
    k0_pay12 (F := Ideal) x0 x (ix2 k l) = tCross x0 x k l := by
  unfold k0_pay12 k0_pay10
  rw [shapeCast_self]
  refine (matmul_zero_apply (k0_pay9 x0) x k l).trans ?_
  exact Finset.sum_congr rfl fun c _ => congrArg (· * x (ix2 c l)) (pay9_apply x0 k c)
/-- The same product as the step forms it for the right half. -/
theorem cross_right (x0 : Vec Ideal S2048x3 .f32) (x : Vec Ideal S3x4096 .f32) (k : Fin 2048) (l : Fin 4096) :
    k0_pay19 (F := Ideal) x0 x (ix2 k l) = tCross x0 x k l := by
  unfold k0_pay19 k0_pay17
  rw [shapeCast_self]
  refine (matmul_zero_apply (k0_pay9 x0) x k l).trans ?_
  exact Finset.sum_congr rfl fun c _ => congrArg (· * x (ix2 c l)) (pay9_apply x0 k c)
/-- Row `k`'s squared norm, kept as a column vector. -/
theorem sq_row (x0 : Vec Ideal S2048x3 .f32) (k : Fin 2048) :
    k0_pay8 (F := Ideal) x0 (ix2 k (0 : Fin 1)) = tSq0 x0 k := by
  unfold k0_pay8
  refine (shapeCast_col_apply _ shapeCasts_S2048_S2048x1 k 0).trans ?_
  exact sum_axis1_apply (mulf x0 x0) k
/-- Column `l`'s squared norm, kept as a row vector (left half's spelling). -/
theorem sq_col_left (x : Vec Ideal S3x4096 .f32) (l : Fin 4096) :
    k0_pay11 (F := Ideal) x (ix2 (0 : Fin 1) l) = tSq1 x l := by
  unfold k0_pay11 k0_pay10
  rw [shapeCast_self]
  refine (shapeCast_a_1a_apply _ shapeCasts_S4096_S1x4096 0 l).trans ?_
  exact sum_axis0_apply (mulf x x) l
/-- The same for the right half's spelling. -/
theorem sq_col_right (x : Vec Ideal S3x4096 .f32) (l : Fin 4096) :
    k0_pay18 (F := Ideal) x (ix2 (0 : Fin 1) l) = tSq1 x l := by
  unfold k0_pay18 k0_pay17
  rw [shapeCast_self]
  refine (shapeCast_a_1a_apply _ shapeCasts_S4096_S1x4096 0 l).trans ?_
  exact sum_axis0_apply (mulf x x) l

end Cert.KernelIdeal.PayValue

end
-- ==== Proof.PayRow.lean ====
/-
  A row of the tile in one grid step, at the ideal instance: its minimum over each half of the columns, and the
  clamped square root of the smaller one plus the row's own squared norm.
-/
import proofs.«143169_g26491358282344_cont_9to1_1100_12_alg».proof.Proof.Gen.KernelIdeal.Skeleton
import proofs.«143169_g26491358282344_cont_9to1_1100_12_alg».proof.Proof.Spec
import proofs.«143169_g26491358282344_cont_9to1_1100_12_alg».proof.Proof.Consts
import proofs.«143169_g26491358282344_cont_9to1_1100_12_alg».proof.Proof.PayBase
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Cert.Spec

/-! ## Reading a minimum along the columns, and a column vector, at an index -/

/-- The reduced index `k` with column `l` put back is `(k, l)`. -/
theorem lift_row (h : S2048x4096.Reduces [1] S2048) (k : Fin 2048) (l : Fin (S2048x4096.size 1)) :
    h.lift (ix1 k) l = ix2 k (⟨l.val, l.isLt⟩ : Fin 4096) := by
  funext c; apply Fin.ext
  fin_cases c <;> rfl

/-- The minimum over axis 1 of a `[2048, 4096]` vector from `+inf`, at row `k`, is the minimum of that row's 4096
    entries. -/
theorem min_axis1_apply (v : FVec Ideal S2048x4096 .f32) (h : S2048x4096.Reduces [1] S2048) (hφ : FKind.Formats .f32)
    (hacc : (0x7F800000#32 : BitVec 32) = FKind.minimumf.neutral .f32 hφ) (k : Fin 2048) :
    multiReduction .minimumf [1] S2048 v 0x7F800000#32 h hφ hacc (ix1 k)
      = (Finset.univ : Finset (Fin 4096)).fold min cInf fun l => v (ix2 k l) := by
  refine (multiReduction_minimumf_eq_fold v _ h hφ hacc (ix1 k)).trans ?_
  refine (h.fold_filter_drop_single _ _ v (ix1 k)).trans ?_
  have hf : (v ∘ h.lift (ix1 k)) = fun l : Fin 4096 => v (ix2 k l) := funext fun l => congrArg v (lift_row h k l)
  exact congrArg (fun f => Finset.fold min cInf f (Finset.univ : Finset (Fin 4096))) hf

/-- A square root at an index is the square root of the element. -/
theorem sqrt_apply {s : Shape} {φ : FTy} (a : FVec Ideal s φ) (i : s.Idx) : sqrt a i = Ideal.sqrt (a i) := rfl

/-- A scalar literal is the extended real its word denotes. -/
theorem scalar_ofBits (b : BitVec (FTy.f32).bits) : Scalar.ofBits (F := Ideal) .f32 b = Ideal.ofBits .f32 b := rfl

/-- The step's row result over any three operands: the cast of the plain vector, the smaller of the two minima, the norm
    added, the clamp from below, the square root. -/
theorem pay4_apply (v3 v17 : FVec Ideal S2048x1 .f32) (v37 : FVec Ideal S2048 .f32) (k : Fin 2048) :
    k0_pay4 (F := Ideal) v3 v17 v37 (ix2 k (0 : Fin 1))
      = Ideal.sqrt (max (min (v17 (ix2 k (0 : Fin 1))) (v37 (ix1 k)) + v3 (ix2 k (0 : Fin 1))) cEps) := by
  unfold k0_pay4
  refine (sqrt_apply _ _).trans (congrArg Ideal.sqrt ?_)
  refine (maximumf_apply _ _ _).trans ?_
  refine congrArg₂ max ?_ ((broadcast_apply _ _).trans (scalar_ofBits _))
  refine (addf_apply _ _ _).trans (congrArg (· + v3 (ix2 k (0 : Fin 1))) ?_)
  refine (minimumf_apply _ _ _).trans (congrArg (min (v17 (ix2 k (0 : Fin 1)))) ?_)
  exact shapeCast_col_apply v37 _ k 0

/-- Row `k`'s minimum over the left half: the step's first row reduction, kept as a column vector. -/
theorem rowHalf_left (x0 : Vec Ideal S2048x3 .f32) (x : Vec Ideal S3x4096 .f32) (k : Fin 2048) :
    k0_pay13 (F := Ideal) x0 x (ix2 k (0 : Fin 1)) = tRowHalf x0 x k := by
  unfold k0_pay13
  refine (shapeCast_col_apply _ _ k 0).trans ?_
  refine (min_axis1_apply _ _ _ _ k).trans ?_
  unfold tRowHalf
  refine congrArg (fun f => Finset.fold min cInf f (Finset.univ : Finset (Fin 4096))) (funext fun l => ?_)
  refine (addf_apply _ _ _).trans ?_
  refine congrArg₂ (· + ·) (cross_left x0 x k l) ?_
  exact (broadcastTo_1b_ab_apply _ _ k l).trans (sq_col_left x l)

/-- Row `k`'s minimum over the right half: the step's second row reduction, a plain vector. -/
theorem rowHalf_right (x0 : Vec Ideal S2048x3 .f32) (x : Vec Ideal S3x4096 .f32) (k : Fin 2048) :
    k0_pay21 (F := Ideal) x0 x (ix1 k) = tRowHalf x0 x k := by
  unfold k0_pay21
  refine (min_axis1_apply _ _ _ _ k).trans ?_
  unfold tRowHalf
  refine congrArg (fun f => Finset.fold min cInf f (Finset.univ : Finset (Fin 4096))) (funext fun l => ?_)
  refine (addf_apply _ _ _).trans ?_
  refine congrArg₂ (· + ·) (cross_right x0 x k l) ?_
  exact (broadcastTo_1b_ab_apply _ _ k l).trans (sq_col_right x l)

/-- Row `k` of the tile: the clamped square root of its minimum over both halves plus its own norm. -/
theorem pay_row (x0 : Vec Ideal S2048x3 .f32) (xL xR : Vec Ideal S3x4096 .f32) (k : Fin 2048) :
    k0_pay4 (F := Ideal) (k0_pay8 x0) (k0_pay13 x0 xL) (k0_pay21 x0 xR) (ix2 k (0 : Fin 1)) = tRow x0 xL xR k := by
  refine (pay4_apply _ _ _ k).trans ?_
  unfold tRow
  exact congrArg (fun y => Ideal.sqrt (max y cEps))
    (congrArg₂ (· + ·) (congrArg₂ min (rowHalf_left x0 xL k) (rowHalf_right x0 xR k)) (sq_row x0 k))

end Cert.KernelIdeal.PayValue

end
-- ==== Proof.PayCol.lean ====
/-
  A column of a half in one grid step, at the ideal instance: the minimum over the tile's rows of the product plus the
  row's squared norm, with the column's own squared norm added afterwards.
-/
import proofs.«143169_g26491358282344_cont_9to1_1100_12_alg».proof.Proof.Gen.KernelIdeal.Skeleton
import proofs.«143169_g26491358282344_cont_9to1_1100_12_alg».proof.Proof.Spec
import proofs.«143169_g26491358282344_cont_9to1_1100_12_alg».proof.Proof.Consts
import proofs.«143169_g26491358282344_cont_9to1_1100_12_alg».proof.Proof.PayBase
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Cert.Spec

/-! ## Reading a minimum down the rows, and a column vector spread over the columns, at an index -/

/-- The reduced index `l` with row `k` put back is `(k, l)`. -/
theorem lift_col (h : S2048x4096.Reduces [0] S4096) (l : Fin 4096) (k : Fin (S2048x4096.size 0)) :
    h.lift (ix1 l) k = ix2 (⟨k.val, k.isLt⟩ : Fin 2048) l := by
  funext c; apply Fin.ext
  fin_cases c <;> rfl

/-- The minimum over axis 0 of a `[2048, 4096]` vector from `+inf`, at column `l`, is the minimum of that column's
    2048 entries. -/
theorem min_axis0_apply (v : FVec Ideal S2048x4096 .f32) (h : S2048x4096.Reduces [0] S4096) (hφ : FKind.Formats .f32)
    (hacc : (0x7F800000#32 : BitVec 32) = FKind.minimumf.neutral .f32 hφ) (l : Fin 4096) :
    multiReduction .minimumf [0] S4096 v 0x7F800000#32 h hφ hacc (ix1 l)
      = (Finset.univ : Finset (Fin 2048)).fold min cInf fun k => v (ix2 k l) := by
  refine (multiReduction_minimumf_eq_fold v _ h hφ hacc (ix1 l)).trans ?_
  refine (h.fold_filter_drop_single _ _ v (ix1 l)).trans ?_
  have hf : (v ∘ h.lift (ix1 l)) = fun k : Fin 2048 => v (ix2 k l) := funext fun k => congrArg v (lift_col h l k)
  exact congrArg (fun f => Finset.fold min cInf f (Finset.univ : Finset (Fin 2048))) hf

/-- A `[2048, 1]` column broadcast to `[2048, 4096]` reads, at `(k, l)`, the column's entry of row `k`. -/
theorem broadcastTo_col_apply {α : Type} (v : S2048x1.Idx → α) (h : S2048x1.Broadcasts S2048x4096) (k : Fin 2048) (l : Fin 4096) :
    broadcastTo S2048x4096 v h (ix2 k l) = v (ix2 k (0 : Fin 1)) := by
  refine broadcastTo_apply v h (ix2 k l) (ix2 k (0 : Fin 1)) fun ax => ?_
  match ax with
  | ⟨0, _⟩ =>
    show k.val = if (2048 : ℕ) = 1 then 0 else k.val
    exact (if_neg (by decide)).symm
  | ⟨1, _⟩ => rfl

/-- Column `l` of the left half: the minimum over the tile's rows, plus the column's norm. -/
theorem pay_colL (x0 : Vec Ideal S2048x3 .f32) (x : Vec Ideal S3x4096 .f32) (l : Fin 4096) :
    k0_pay14 (F := Ideal) x0 x (ix2 (0 : Fin 1) l) = tCol x0 x l := by
  unfold k0_pay14
  refine (addf_apply _ _ _).trans ?_
  unfold tCol
  refine congrArg₂ (· + ·) ?_ (sq_col_left x l)
  refine (shapeCast_a_1a_apply _ _ 0 l).trans ?_
  refine (min_axis0_apply _ _ _ _ l).trans ?_
  refine congrArg (fun f => Finset.fold min cInf f (Finset.univ : Finset (Fin 2048))) (funext fun k => ?_)
  refine (addf_apply _ _ _).trans ?_
  refine congrArg₂ (· + ·) (cross_left x0 x k l) ?_
  exact (broadcastTo_col_apply _ _ k l).trans (sq_row x0 k)

/-- Column `l` of the right half: the same function of the right half's block. -/
theorem pay_colR (x0 : Vec Ideal S2048x3 .f32) (x : Vec Ideal S3x4096 .f32) (l : Fin 4096) :
    k0_pay1 (F := Ideal) (k0_pay18 x) (k0_pay20 x0 x) (ix2 (0 : Fin 1) l) = tCol x0 x l := by
  unfold k0_pay1
  refine (addf_apply _ _ _).trans ?_
  unfold tCol
  refine congrArg₂ (· + ·) ?_ (sq_col_right x l)
  refine (shapeCast_a_1a_apply _ _ 0 l).trans ?_
  refine (min_axis0_apply _ _ _ _ l).trans ?_
  refine congrArg (fun f => Finset.fold min cInf f (Finset.univ : Finset (Fin 2048))) (funext fun k => ?_)
  unfold k0_pay20
  refine (addf_apply _ _ _).trans ?_
  refine congrArg₂ (· + ·) (cross_right x0 x k l) ?_
  exact (broadcastTo_col_apply _ _ k l).trans (sq_row x0 k)

end Cert.KernelIdeal.PayValue

end
-- ==== Proof.PayOut.lean ====
/-
  The last grid step's result word, at the ideal instance, from the two accumulators it reads: the sum of the 2048
  entries of the row accumulator, plus the sum over the 8192 entries of the column accumulator of the square root of
  the entry clamped from below, the whole divided by 16384.

  Each of the two totals is a sum over a rank-three index set with two axes of size one, re-indexed by the one
  coordinate that varies; the casts that add the unit axes read the operand at the remaining coordinates.
-/
import proofs.«143169_g26491358282344_cont_9to1_1100_12_alg».proof.Proof.Gen.KernelIdeal.Skeleton
import proofs.«143169_g26491358282344_cont_9to1_1100_12_alg».proof.Proof.Spec
import proofs.«143169_g26491358282344_cont_9to1_1100_12_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Cert.Spec

/-- Every index of a `[1, n, 1]` array is `(0, k, 0)` for its middle coordinate `k`. -/
theorem eq_ix3_mid {n : Nat} (i : (⟨3, ![1, n, 1]⟩ : Shape).Idx) : i = ix3 (0 : Fin 1) (i 1) (0 : Fin 1) := by
  funext a
  match a with
  | ⟨0, _⟩ => exact Fin.ext (by have h : (i 0).val < 1 := (i 0).isLt; show (i 0).val = 0; omega)
  | ⟨1, _⟩ => rfl
  | ⟨2, _⟩ => exact Fin.ext (by have h : (i 2).val < 1 := (i 2).isLt; show (i 2).val = 0; omega)

/-- Every index of a `[1, 1, n]` array is `(0, 0, j)` for its last coordinate `j`. -/
theorem eq_ix3_last {n : Nat} (i : (⟨3, ![1, 1, n]⟩ : Shape).Idx) : i = ix3 (0 : Fin 1) (0 : Fin 1) (i 2) := by
  funext a
  match a with
  | ⟨0, _⟩ => exact Fin.ext (by have h : (i 0).val < 1 := (i 0).isLt; show (i 0).val = 0; omega)
  | ⟨1, _⟩ => exact Fin.ext (by have h : (i 1).val < 1 := (i 1).isLt; show (i 1).val = 0; omega)
  | ⟨2, _⟩ => rfl

/-- A sum over the index set of a `[1, n, 1]` array is the sum over its middle coordinate. -/
theorem sum_mid {n : Nat} (f : (⟨3, ![1, n, 1]⟩ : Shape).Idx → EReal) :
    ∑ i, f i = ∑ k : Fin n, f (ix3 (0 : Fin 1) k (0 : Fin 1)) :=
  Fintype.sum_equiv
    { toFun := fun i => i 1, invFun := fun k => ix3 (0 : Fin 1) k (0 : Fin 1),
      left_inv := fun i => (eq_ix3_mid i).symm, right_inv := fun _ => rfl }
    _ _ fun i => congrArg f (eq_ix3_mid i)

/-- A sum over the index set of a `[1, 1, n]` array is the sum over its last coordinate. -/
theorem sum_last {n : Nat} (f : (⟨3, ![1, 1, n]⟩ : Shape).Idx → EReal) :
    ∑ i, f i = ∑ j : Fin n, f (ix3 (0 : Fin 1) (0 : Fin 1) j) :=
  Fintype.sum_equiv
    { toFun := fun i => i 2, invFun := fun j => ix3 (0 : Fin 1) (0 : Fin 1) j,
      left_inv := fun i => (eq_ix3_last i).symm, right_inv := fun _ => rfl }
    _ _ fun i => congrArg f (eq_ix3_last i)

/-- A `[1, b]` array cast to `[1, 1, b]` reads, at `(u, w, j)`, the operand at `(0, j)`. -/
theorem shapeCast_1b_11b_apply {α : Type} {b : ℕ} (x : (⟨2, ![1, b]⟩ : Shape).Idx → α)
    (h : (⟨2, ![1, b]⟩ : Shape).ShapeCasts ⟨3, ![1, 1, b]⟩) (u w : Fin 1) (j : Fin b) :
    shapeCast ⟨3, ![1, 1, b]⟩ x h (ix3 u w j) = x (ix2 (0 : Fin 1) j) :=
  shapeCast_apply x h _ _ (by
    have hu : u.val = 0 := by omega
    have hw : w.val = 0 := by omega
    rw [Shape.rowMajor_val_three, Shape.rowMajor_val_two]
    show (0 : Fin 1).val * b + j.val = (u.val * 1 + w.val) * b + j.val
    rw [hu, hw]; simp)

/-- The scalar a total sum leaves: an `add` reduction into the one-element shape `[1]`, cast to `[1, 1, 1]` and read
    at its only position, is the sum of the source over all of its indices. -/
theorem extract_total {s : Shape} {axes : List (Fin s.rank)} (src : FVec Ideal s .f32) (acc : BitVec 32)
    (h : s.Reduces axes S1) (hφ : FKind.Formats FTy.f32) (hacc : acc = FKind.add.neutral .f32 hφ)
    (hc : S1.ShapeCasts S1x1x1) (hp : ∀ a, (![0, 0, 0] : Fin 3 → Nat) a < S1x1x1.size a) :
    extractAt ![0, 0, 0] (shapeCast S1x1x1 (multiReduction .add axes S1 src acc h hφ hacc) hc) hp = ∑ i : s.Idx, src i := by
  unfold extractAt shapeCast
  exact Ideal.multiReduction_add_total src acc h (fun b => by match b with | ⟨0, _⟩ => rfl) hφ hacc _

/-- The result word from the two accumulators. -/
theorem pay_out (s1 : Vec Ideal S1x8192 .f32) (s0 : Vec Ideal S2048x1 .f32) (y : S1x1.Idx) :
    k0_pay7 (F := Ideal) s1 s0 y = tOut s1 s0 := by
  unfold k0_pay7 tOut
  simp only []
  refine (divf_apply _ _ _).trans ?_
  refine congrArg₂ Ideal.div ?_ rfl
  refine (addf_apply _ _ _).trans ?_
  refine congrArg₂ (· + ·) ?_ ?_
  · -- the row accumulator: the total over `[1, 2048, 1]` is the sum over the middle coordinate
    refine (broadcast_apply _ _).trans ?_
    refine (extract_total _ _ _ _ _ _ _).trans ?_
    refine (sum_mid _).trans ?_
    exact Finset.sum_congr rfl fun k _ => shapeCast_ab_1ab_apply s0 _ (0 : Fin 1) k (0 : Fin 1)
  · -- the column accumulator: the total over `[1, 1, 8192]` is the sum over the last coordinate
    refine (broadcast_apply _ _).trans ?_
    refine (extract_total _ _ _ _ _ _ _).trans ?_
    refine (sum_last _).trans ?_
    exact Finset.sum_congr rfl fun j _ => (shapeCast_1b_11b_apply _ _ (0 : Fin 1) (0 : Fin 1) j).trans rfl

end Cert.KernelIdeal.PayValue

end
-- ==== Proof.KSteps.lean ====
/-
  The accumulators after each of the four grid steps, and the result word the last step stores.

  After step `t` the row accumulator holds, at row `k`, the sum of the row distances of rows `k`, `2048 + k`, …,
  `2048·t + k`, and the column accumulator holds, at column `j`, the minimum over the first `t + 1` tiles of the
  column's tile minimum. The last step's result word is the total of the specification.
-/
import proofs.«143169_g26491358282344_cont_9to1_1100_12_alg».proof.Proof.Gen.KernelIdeal.Frame
import proofs.«143169_g26491358282344_cont_9to1_1100_12_alg».proof.Proof.Spec
import proofs.«143169_g26491358282344_cont_9to1_1100_12_alg».proof.Proof.SpecTile
import proofs.«143169_g26491358282344_cont_9to1_1100_12_alg».proof.Proof.KBlocks
import proofs.«143169_g26491358282344_cont_9to1_1100_12_alg».proof.Proof.KPieces
import proofs.«143169_g26491358282344_cont_9to1_1100_12_alg».proof.Proof.PayBase
import proofs.«143169_g26491358282344_cont_9to1_1100_12_alg».proof.Proof.PayRow
import proofs.«143169_g26491358282344_cont_9to1_1100_12_alg».proof.Proof.PayCol
import proofs.«143169_g26491358282344_cont_9to1_1100_12_alg».proof.Proof.PayOut
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

open Cert.KernelIdeal.Pieces Cert.KernelIdeal.PayValue

/-! ## One step's values over the clouds -/

theorem ldL_X1 (c : Dev nD) (t : Fin cfg0.N) (d : Fin 3) (l : Fin 4096) :
    ldL (X1 m c t) (ix2 d l) = real m c (ix2 (colIx 0 l) d) := by rw [ldL_apply, blk1]
theorem ldR_X1 (c : Dev nD) (t : Fin cfg0.N) (d : Fin 3) (l : Fin 4096) :
    ldR (X1 m c t) (ix2 d l) = real m c (ix2 (colIx 1 l) d) := by rw [ldR_apply, blk1]

/-- The row distance the step computes for its row `k`. -/
abbrev rowPay (c : Dev nD) (t : Fin cfg0.N) : Vec Ideal S2048x1 .f32 :=
  k0_pay4 (F := Ideal) (k0_pay8 (X0 m c t)) (k0_pay13 (X0 m c t) (ldL (X1 m c t))) (k0_pay21 (X0 m c t) (ldR (X1 m c t)))
/-- The column minima the step computes for the two halves. -/
abbrev colPayL (c : Dev nD) (t : Fin cfg0.N) : Vec Ideal S1x4096 .f32 := k0_pay14 (F := Ideal) (X0 m c t) (ldL (X1 m c t))
abbrev colPayR (c : Dev nD) (t : Fin cfg0.N) : Vec Ideal S1x4096 .f32 :=
  k0_pay1 (F := Ideal) (k0_pay18 (ldR (X1 m c t))) (k0_pay20 (X0 m c t) (ldR (X1 m c t)))

theorem row_val (c : Dev nD) (t : Fin cfg0.N) (tt : Fin 4) (ht : t.val = tt.val) (k : Fin 2048) :
    rowPay m c t (ix2 k (0 : Fin 1)) = kerRow (pred m c) (real m c) (rowIx tt k) :=
  (pay_row _ _ _ k).trans (tRow_eq (pred m c) (real m c) tt (X0 m c t) _ _ (blk0 m c t tt ht) (ldL_X1 m c t) (ldR_X1 m c t) k)

theorem colL_val (c : Dev nD) (t : Fin cfg0.N) (tt : Fin 4) (ht : t.val = tt.val) (l : Fin 4096) :
    colPayL m c t (ix2 (0 : Fin 1) l) = kerColTile (pred m c) (real m c) tt (colIx 0 l) :=
  (pay_colL _ _ l).trans (tCol_eq (pred m c) (real m c) tt 0 (X0 m c t) (ldL (X1 m c t)) (blk0 m c t tt ht) (ldL_X1 m c t) l)

theorem colR_val (c : Dev nD) (t : Fin cfg0.N) (tt : Fin 4) (ht : t.val = tt.val) (l : Fin 4096) :
    colPayR m c t (ix2 (0 : Fin 1) l) = kerColTile (pred m c) (real m c) tt (colIx 1 l) :=
  (pay_colR _ _ l).trans (tCol_eq (pred m c) (real m c) tt 1 (X0 m c t) (ldR (X1 m c t)) (blk0 m c t tt ht) (ldR_X1 m c t) l)

/-- The two halves the first step stores, side by side, are the first tile's column minima. -/
theorem colFirst_val (c : Dev nD) (t : Fin cfg0.N) (tt : Fin 4) (ht : t.val = tt.val) (j : Fin 8192) :
    join (F := Ideal) (k0_pay15 (F := Ideal) (X0 m c t) (ldL (X1 m c t)))
        (k0_pay2 (F := Ideal) (k0_pay18 (ldR (X1 m c t))) (k0_pay20 (X0 m c t) (ldR (X1 m c t)))) (ix2 (0 : Fin 1) j)
      = kerColTile (pred m c) (real m c) tt j := by
  obtain ⟨h, l, rfl⟩ := exists_colIx j
  match h with
  | ⟨0, _⟩ => exact (join_lo _ _ l).trans ((congrFun (pay15_eq _ _) _).trans (colL_val m c t tt ht l))
  | ⟨1, _⟩ => exact (join_hi _ _ l).trans ((congrFun (pay2_eq _ _) _).trans (colR_val m c t tt ht l))

/-- The two halves a later step stores are the running minimum with this tile's column minima. -/
theorem colNext_val (c : Dev nD) (t : Fin cfg0.N) (tt : Fin 4) (ht : t.val = tt.val) (prev : Vec Ideal S1x8192 .f32) (j : Fin 8192) :
    join (F := Ideal) (k0_pay16 (F := Ideal) (X0 m c t) (ldL (X1 m c t)) (sdL prev))
        (k0_pay3 (F := Ideal) (k0_pay18 (ldR (X1 m c t))) (k0_pay20 (X0 m c t) (ldR (X1 m c t))) (sdR prev)) (ix2 (0 : Fin 1) j)
      = min (prev (ix2 (0 : Fin 1) j)) (kerColTile (pred m c) (real m c) tt j) := by
  obtain ⟨h, l, rfl⟩ := exists_colIx j
  match h with
  | ⟨0, _⟩ =>
    refine (join_lo _ _ l).trans ((congrFun (pay16_eq _ _ _) _).trans ?_)
    show min (sdL prev (ix2 (0 : Fin 1) l)) (colPayL m c t (ix2 (0 : Fin 1) l)) = _
    rw [sdL_apply, colL_val m c t tt ht l]
    rfl
  | ⟨1, _⟩ =>
    refine (join_hi _ _ l).trans ((congrFun (pay3_eq _ _ _) _).trans ?_)
    show min (sdR prev (ix2 (0 : Fin 1) l)) (colPayR m c t (ix2 (0 : Fin 1) l)) = _
    rw [sdR_apply, colR_val m c t tt ht l]
    rfl

theorem rowFirst_val (c : Dev nD) (t : Fin cfg0.N) (tt : Fin 4) (ht : t.val = tt.val) (k : Fin 2048) :
    k0_pay5 (F := Ideal) (k0_pay8 (X0 m c t)) (k0_pay13 (X0 m c t) (ldL (X1 m c t))) (k0_pay21 (X0 m c t) (ldR (X1 m c t))) (ix2 k (0 : Fin 1))
      = kerRow (pred m c) (real m c) (rowIx tt k) :=
  (congrFun (pay5_eq _ _ _) _).trans (row_val m c t tt ht k)

theorem rowNext_val (c : Dev nD) (t : Fin cfg0.N) (tt : Fin 4) (ht : t.val = tt.val) (prev : Vec Ideal S2048x1 .f32) (k : Fin 2048) :
    k0_pay6 (F := Ideal) (k0_pay8 (X0 m c t)) (k0_pay13 (X0 m c t) (ldL (X1 m c t))) (k0_pay21 (X0 m c t) (ldR (X1 m c t))) prev (ix2 k (0 : Fin 1))
      = prev (ix2 k (0 : Fin 1)) + kerRow (pred m c) (real m c) (rowIx tt k) := by
  refine (congrFun (pay6_eq _ _ _ _) _).trans ?_
  show prev (ix2 k (0 : Fin 1)) + rowPay m c t (ix2 k (0 : Fin 1)) = _
  rw [row_val m c t tt ht k]

/-! ## The accumulators step by step -/

/-- The row accumulator, the column accumulator and the result block after the body at position `n`. -/
abbrev S0 (c : Dev nD) (n : ℕ) (hn : n < cfg0.N) : Vec Ideal S2048x1 .f32 := (outsAt0 m c n hn).2.1
abbrev S1 (c : Dev nD) (n : ℕ) (hn : n < cfg0.N) : Vec Ideal S1x8192 .f32 := (outsAt0 m c n hn).2.2
abbrev O2 (c : Dev nD) (n : ℕ) (hn : n < cfg0.N) : Vec Ideal S1x1 .f32 := (outsAt0 m c n hn).1

theorem outs_first (c : Dev nD) (t : Fin cfg0.N) (ht : t.val = 0) :
    S0 m c t.val t.isLt
        = k0_pay5 (F := Ideal) (k0_pay8 (X0 m c t)) (k0_pay13 (X0 m c t) (ldL (X1 m c t))) (k0_pay21 (X0 m c t) (ldR (X1 m c t)))
    ∧ S1 m c t.val t.isLt
        = join (F := Ideal) (k0_pay15 (F := Ideal) (X0 m c t) (ldL (X1 m c t)))
            (k0_pay2 (F := Ideal) (k0_pay18 (ldR (X1 m c t))) (k0_pay20 (X0 m c t) (ldR (X1 m c t)))) := by
  have h0 : t.val % 4 = 0 := by omega
  have h1 : ¬1 ≤ t.val := by omega
  have h6 : ¬t.val % 4 = 3 := by omega
  unfold S0 S1
  rw [outsAt0_A m c t h0 h1 h0 h1 h0 h1 h6]
  dsimp only
  exact ⟨sA0 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) ((hcond0_2 t).mpr h0) (fun h => h1 ((hcond0_3 t).mp h)) ((hcond0_4 t).mpr h0) (fun h => h1 ((hcond0_5 t).mp h)) (fun h => h6 ((hcond0_6 t).mp h)) (iblk m c 0 t) (iblk m c 1 t),
    sA1 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) ((hcond0_2 t).mpr h0) (fun h => h1 ((hcond0_3 t).mp h)) ((hcond0_4 t).mpr h0) (fun h => h1 ((hcond0_5 t).mp h)) (fun h => h6 ((hcond0_6 t).mp h)) (iblk m c 0 t) (iblk m c 1 t)⟩

theorem outs_middle (c : Dev nD) (t : Fin cfg0.N) (h1 : 1 ≤ t.val) (h6 : ¬t.val % 4 = 3) :
    S0 m c t.val t.isLt
        = k0_pay6 (F := Ideal) (k0_pay8 (X0 m c t)) (k0_pay13 (X0 m c t) (ldL (X1 m c t))) (k0_pay21 (X0 m c t) (ldR (X1 m c t)))
            (S0 m c (t.val - 1) (Nat.lt_of_le_of_lt (Nat.sub_le _ _) t.isLt))
    ∧ S1 m c t.val t.isLt
        = join (F := Ideal) (k0_pay16 (F := Ideal) (X0 m c t) (ldL (X1 m c t)) (sdL (S1 m c (t.val - 1) (Nat.lt_of_le_of_lt (Nat.sub_le _ _) t.isLt))))
            (k0_pay3 (F := Ideal) (k0_pay18 (ldR (X1 m c t))) (k0_pay20 (X0 m c t) (ldR (X1 m c t)))
              (sdR (S1 m c (t.val - 1) (Nat.lt_of_le_of_lt (Nat.sub_le _ _) t.isLt)))) := by
  have hN : t.val < 4 := lt_of_lt_of_eq t.isLt (show cfg0.N = 4 from N_0)
  have h0 : ¬t.val % 4 = 0 := by omega
  unfold S0 S1
  rw [outsAt0_B m c t h0 h1 h0 h1 h0 h1 h6]
  dsimp only
  exact ⟨sB0 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (fun h => h0 ((hcond0_2 t).mp h)) ((hcond0_3 t).mpr h1) (fun h => h0 ((hcond0_4 t).mp h)) ((hcond0_5 t).mpr h1) (fun h => h6 ((hcond0_6 t).mp h)) (iblk m c 0 t) (iblk m c 1 t) _ _,
    sB1 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (fun h => h0 ((hcond0_2 t).mp h)) ((hcond0_3 t).mpr h1) (fun h => h0 ((hcond0_4 t).mp h)) ((hcond0_5 t).mpr h1) (fun h => h6 ((hcond0_6 t).mp h)) (iblk m c 0 t) (iblk m c 1 t) _ _⟩

theorem outs_last (c : Dev nD) (t : Fin cfg0.N) (h1 : 1 ≤ t.val) (h6 : t.val % 4 = 3) :
    S0 m c t.val t.isLt
        = k0_pay6 (F := Ideal) (k0_pay8 (X0 m c t)) (k0_pay13 (X0 m c t) (ldL (X1 m c t))) (k0_pay21 (X0 m c t) (ldR (X1 m c t)))
            (S0 m c (t.val - 1) (Nat.lt_of_le_of_lt (Nat.sub_le _ _) t.isLt))
    ∧ S1 m c t.val t.isLt
        = join (F := Ideal) (k0_pay16 (F := Ideal) (X0 m c t) (ldL (X1 m c t)) (sdL (S1 m c (t.val - 1) (Nat.lt_of_le_of_lt (Nat.sub_le _ _) t.isLt))))
            (k0_pay3 (F := Ideal) (k0_pay18 (ldR (X1 m c t))) (k0_pay20 (X0 m c t) (ldR (X1 m c t)))
              (sdR (S1 m c (t.val - 1) (Nat.lt_of_le_of_lt (Nat.sub_le _ _) t.isLt))))
    ∧ O2 m c t.val t.isLt = k0_pay7 (F := Ideal) (S1 m c t.val t.isLt) (S0 m c t.val t.isLt) := by
  have hN : t.val < 4 := lt_of_lt_of_eq t.isLt (show cfg0.N = 4 from N_0)
  have h0 : ¬t.val % 4 = 0 := by omega
  unfold S0 S1 O2
  rw [outsAt0_C m c t h0 h1 h0 h1 h0 h1 h6]
  dsimp only
  have e0 := sC0 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (fun h => h0 ((hcond0_2 t).mp h)) ((hcond0_3 t).mpr h1) (fun h => h0 ((hcond0_4 t).mp h)) ((hcond0_5 t).mpr h1) ((hcond0_6 t).mpr h6) (iblk m c 0 t) (iblk m c 1 t)
    (outsAt0 m c (t.val - 1) (Nat.lt_of_le_of_lt (Nat.sub_le _ _) t.isLt)).2.1 (outsAt0 m c (t.val - 1) (Nat.lt_of_le_of_lt (Nat.sub_le _ _) t.isLt)).2.2
  have e1 := sC1 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (fun h => h0 ((hcond0_2 t).mp h)) ((hcond0_3 t).mpr h1) (fun h => h0 ((hcond0_4 t).mp h)) ((hcond0_5 t).mpr h1) ((hcond0_6 t).mpr h6) (iblk m c 0 t) (iblk m c 1 t)
    (outsAt0 m c (t.val - 1) (Nat.lt_of_le_of_lt (Nat.sub_le _ _) t.isLt)).2.1 (outsAt0 m c (t.val - 1) (Nat.lt_of_le_of_lt (Nat.sub_le _ _) t.isLt)).2.2
  have e2 := sC2 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (fun h => h0 ((hcond0_2 t).mp h)) ((hcond0_3 t).mpr h1) (fun h => h0 ((hcond0_4 t).mp h)) ((hcond0_5 t).mpr h1) ((hcond0_6 t).mpr h6) (iblk m c 0 t) (iblk m c 1 t)
    (outsAt0 m c (t.val - 1) (Nat.lt_of_le_of_lt (Nat.sub_le _ _) t.isLt)).2.1 (outsAt0 m c (t.val - 1) (Nat.lt_of_le_of_lt (Nat.sub_le _ _) t.isLt)).2.2
  refine ⟨e0, e1, e2.trans ?_⟩
  rw [e0, e1]

end Cert.KernelIdeal.KValue

end
-- ==== Proof.KFinal.lean ====
/-
  The kernel's result. After the fourth grid step the row accumulator holds the 2048 partial sums of the row
  distances and the column accumulator the 8192 column minima over all four tiles, so the result word the step stores
  is the kernel's total of the specification; the pipeline writes that one-word block back once, after the last step,
  and the host line after the call reshapes it to a scalar.
-/
import proofs.«143169_g26491358282344_cont_9to1_1100_12_alg».proof.Proof.Gen.KernelIdeal.Frame
import proofs.«143169_g26491358282344_cont_9to1_1100_12_alg».proof.Proof.Spec
import proofs.«143169_g26491358282344_cont_9to1_1100_12_alg».proof.Proof.KSteps
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

open Cert.KernelIdeal.Pieces Cert.KernelIdeal.PayValue

/-! ## The accumulators after each step

Each fact is stated at a position `n` known only through an equation, so that the step-by-step contents are never
evaluated at a literal position. -/

theorem rows0 (c : Dev nD) (n : ℕ) (hn : n < cfg0.N) (h0 : n = 0) (k : Fin 2048) :
    S0 m c n hn (ix2 k (0 : Fin 1)) = kerRow (pred m c) (real m c) (rowIx 0 k) :=
  (congrFun (outs_first m c ⟨n, hn⟩ h0).1 _).trans (rowFirst_val m c ⟨n, hn⟩ 0 h0 k)

theorem cols0 (c : Dev nD) (n : ℕ) (hn : n < cfg0.N) (h0 : n = 0) (j : Fin 8192) :
    S1 m c n hn (ix2 (0 : Fin 1) j) = kerColTile (pred m c) (real m c) 0 j :=
  (congrFun (outs_first m c ⟨n, hn⟩ h0).2 _).trans (colFirst_val m c ⟨n, hn⟩ 0 h0 j)

theorem rows1 (c : Dev nD) (n : ℕ) (hn : n < cfg0.N) (h1 : n = 1) (k : Fin 2048) :
    S0 m c n hn (ix2 k (0 : Fin 1))
      = kerRow (pred m c) (real m c) (rowIx 0 k) + kerRow (pred m c) (real m c) (rowIx 1 k) :=
  (congrFun (outs_middle m c ⟨n, hn⟩ (by show 1 ≤ n; omega) (by show ¬n % 4 = 3; omega)).1 _).trans
    ((rowNext_val m c ⟨n, hn⟩ 1 h1 _ k).trans
      (congrArg (· + kerRow (pred m c) (real m c) (rowIx 1 k)) (rows0 m c (n - 1) _ (by omega) k)))

theorem cols1 (c : Dev nD) (n : ℕ) (hn : n < cfg0.N) (h1 : n = 1) (j : Fin 8192) :
    S1 m c n hn (ix2 (0 : Fin 1) j)
      = min (kerColTile (pred m c) (real m c) 0 j) (kerColTile (pred m c) (real m c) 1 j) :=
  (congrFun (outs_middle m c ⟨n, hn⟩ (by show 1 ≤ n; omega) (by show ¬n % 4 = 3; omega)).2 _).trans
    ((colNext_val m c ⟨n, hn⟩ 1 h1 _ j).trans
      (congrArg (min · (kerColTile (pred m c) (real m c) 1 j)) (cols0 m c (n - 1) _ (by omega) j)))

theorem rows2 (c : Dev nD) (n : ℕ) (hn : n < cfg0.N) (h2 : n = 2) (k : Fin 2048) :
    S0 m c n hn (ix2 k (0 : Fin 1))
      = (kerRow (pred m c) (real m c) (rowIx 0 k) + kerRow (pred m c) (real m c) (rowIx 1 k))
        + kerRow (pred m c) (real m c) (rowIx 2 k) :=
  (congrFun (outs_middle m c ⟨n, hn⟩ (by show 1 ≤ n; omega) (by show ¬n % 4 = 3; omega)).1 _).trans
    ((rowNext_val m c ⟨n, hn⟩ 2 h2 _ k).trans
      (congrArg (· + kerRow (pred m c) (real m c) (rowIx 2 k)) (rows1 m c (n - 1) _ (by omega) k)))

theorem cols2 (c : Dev nD) (n : ℕ) (hn : n < cfg0.N) (h2 : n = 2) (j : Fin 8192) :
    S1 m c n hn (ix2 (0 : Fin 1) j)
      = min (min (kerColTile (pred m c) (real m c) 0 j) (kerColTile (pred m c) (real m c) 1 j))
          (kerColTile (pred m c) (real m c) 2 j) :=
  (congrFun (outs_middle m c ⟨n, hn⟩ (by show 1 ≤ n; omega) (by show ¬n % 4 = 3; omega)).2 _).trans
    ((colNext_val m c ⟨n, hn⟩ 2 h2 _ j).trans
      (congrArg (min · (kerColTile (pred m c) (real m c) 2 j)) (cols1 m c (n - 1) _ (by omega) j)))

theorem rows3 (c : Dev nD) (n : ℕ) (hn : n < cfg0.N) (h3 : n = 3) (k : Fin 2048) :
    S0 m c n hn (ix2 k (0 : Fin 1)) = kerAcc (pred m c) (real m c) k :=
  (congrFun (outs_last m c ⟨n, hn⟩ (by show 1 ≤ n; omega) (by show n % 4 = 3; omega)).1 _).trans
    ((rowNext_val m c ⟨n, hn⟩ 3 h3 _ k).trans
      (congrArg (· + kerRow (pred m c) (real m c) (rowIx 3 k)) (rows2 m c (n - 1) _ (by omega) k)))

theorem cols3 (c : Dev nD) (n : ℕ) (hn : n < cfg0.N) (h3 : n = 3) (j : Fin 8192) :
    S1 m c n hn (ix2 (0 : Fin 1) j)
      = min (min (min (kerColTile (pred m c) (real m c) 0 j) (kerColTile (pred m c) (real m c) 1 j))
          (kerColTile (pred m c) (real m c) 2 j)) (kerColTile (pred m c) (real m c) 3 j) :=
  (congrFun (outs_last m c ⟨n, hn⟩ (by show 1 ≤ n; omega) (by show n % 4 = 3; omega)).2.1 _).trans
    ((colNext_val m c ⟨n, hn⟩ 3 h3 _ j).trans
      (congrArg (min · (kerColTile (pred m c) (real m c) 3 j)) (cols2 m c (n - 1) _ (by omega) j)))

/-- The result word the last step stores is the kernel's total. -/
theorem out3 (c : Dev nD) (n : ℕ) (hn : n < cfg0.N) (h3 : n = 3) (y : S1x1.Idx) :
    O2 m c n hn y = kerTotal (real m c) (pred m c) := by
  refine (congrFun (outs_last m c ⟨n, hn⟩ (by show 1 ≤ n; omega) (by show n % 4 = 3; omega)).2.2 y).trans ?_
  refine (pay_out _ _ y).trans ?_
  unfold tOut kerTotal
  refine congrArg (fun s => Ideal.div s cN) (congrArg₂ (· + ·) (Finset.sum_congr rfl fun k _ => ?_) (Finset.sum_congr rfl fun j _ => ?_))
  · exact rows3 m c n hn h3 k
  · unfold kerCol
    exact congrArg (fun s => Ideal.sqrt (max s cEps)) (cols3 m c n hn h3 j)

/-! ## The result array and the program's result -/

/-- What the result array holds after the call: the kernel's total, at its one index. -/
abbrev result (c : Dev nD) : Buf (Elt Ideal) ((c : Thread nD τ).loc main_v1) := fun _ => kerTotal (real m c) (pred m c)

/-- The one write-back, after the last step, writes it. -/
theorem flushed_eq (c : Dev nD) (t : Fin cfg0.N) (hf : (cfg0.win 2).flush t = true) :
    (dats m 0 c).flushed 2 t = ((cfg0.win 2).blk t).view.read (Elt Ideal) (result m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after0_2]
  have e : (outsAt0 m c t0_3.val t0_3.isLt).1 = result m c := funext fun y => out3 m c t0_3.val t0_3.isLt rfl y
  rw [e]
  have hz' : (fun a => win0_2.index t0_3 a * main_v1.ty.shape.size a) = fun _ => 0 := funext fun a => by fin_cases a <;> decide
  exact (Memref.read_access_unit_zero (Elt Ideal) main_v1 hz' (fun a => by rw [congrFun hz' a]; simp) (result m c)).symm

/-- So the result array ends holding the kernel's total. -/
theorem final_o (c : Dev nD) : (dats m 0 c).arrAt 2 cfg0.N = result m c :=
  (dats m 0 c).arrAt_eq_of_cover 2 (result m c) (flushed_eq m c) fun i =>
    ⟨t0_3, (flush0_2 t0_3).mpr rfl, by
      show i ∈ ((View.whole main_v1).slice (win0_2.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 1 from by decide +kernel]; omega
      | ⟨1, _⟩ => show win0_2.index t0_3 1 * win0_2.size 1 ≤ (i 1 : Nat) ∧ (i 1 : Nat) < win0_2.index t0_3 1 * win0_2.size 1 + win0_2.xsize (grid0.coords t0_3) 1
                  rw [show win0_2.index t0_3 1 * win0_2.size 1 = 0 from by decide +kernel, show win0_2.xsize (grid0.coords t0_3) 1 = 1 from by decide +kernel]; omega⟩

/-- The host line after the call reshapes the one-word array to the scalar result. -/
theorem tail_v2 (c : Dev nD) :
    Pipeline.afterTail₀ cfgs (dats m) 0 (V0 m) [hostOps1] c main_v2 = fun _ => kerTotal (real m c) (pred m c) := by
  unfold Pipeline.afterTail₀
  show StableHlo.after hostOps1 _ (Proc.devRef .tc main_v2) = _
  after_results
  have hw := (Pipeline.withArrays_arr spec0 launch0.win.arr_inj c (V0 m c) (fun w => (dats m 0 c).arrAt w cfg0.N) 2).trans (final_o m c)
  have hw' : Pipeline.withArrays (cfgs 0).spec c (V0 m c) (fun w => (dats m 0 c).arrAt w (cfgs 0).N) (Proc.tc.devRef main_v1)
      = result m c := hw
  funext i
  rw [hw']
  rfl

/-! ## The run -/

/-- Every weakly fair execution of the program ends with the scalar result at the kernel's total of the two clouds
    it was launched with, and the clouds unchanged. -/
theorem run : θ_run defs (onTc (τ := τ) (main (F := Ideal))) ⟨m, fun _ => 0, ρ⟩ fun r => ∀ c : Dev nD,
      r.2.mem ((c.tc : Thread nD τ).loc main_v2) = (fun _ => kerTotal (real m c) (pred m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (tail_v2 m c),
        ((h c).2 main_arg0 (Pipeline.mem_restRefs_of main_arg0 (by decide) (by decide))).trans (W_main_arg0 m (dats m) c),
        ((h c).1 0).trans (((dats m 0 c).arrAt_in 0 rfl _).trans ((A_eq m c 0).trans (V_main_arg1 m c)))⟩)
    (run_main m ρ)

end Cert.KernelIdeal.KValue

end
-- ==== Proof.RefValue.lean ====
/-
  The reference's result, read one operation at a time, is the reference total of the specification.
-/
import proofs.«143169_g26491358282344_cont_9to1_1100_12_alg».proof.Proof.Gen.ReferenceIdeal.Read
import proofs.«143169_g26491358282344_cont_9to1_1100_12_alg».proof.Proof.Spec
import proofs.«143169_g26491358282344_cont_9to1_1100_12_alg».proof.Proof.Consts
import Idealize.ShloMosaic.Lib.ValueIdxRank1

noncomputable section

namespace Cert.ReferenceIdeal.RefValue

open Cert.ReferenceIdeal Cert.ReferenceIdeal.Gen Idealize.ShloMosaic Idealize.ShloMosaic.ValueIdx Cert.Spec

/-! ## Where each operation reads -/

/-- Row `i` of the broadcast column of squared norms reads the cloud at `(i, k)`. -/
private theorem idx_row1 (i j : Fin 8192) (k : Fin 3) :
    Read.idx_main_v1 (Read.idx_main_v2 (Read.idx_main_v6 (ix2 i j))) k = ix2 i k :=
  funext fun a => Fin.ext (by match a with | ⟨0, _⟩ => rfl | ⟨1, _⟩ => rfl)

/-- Column `j` of the broadcast row of squared norms reads the cloud at `(j, k)`. -/
private theorem idx_col1 (i j : Fin 8192) (k : Fin 3) :
    Read.idx_main_v4 (Read.idx_main_v5 (Read.idx_main_v7 (ix2 i j))) k = ix2 j k :=
  funext fun a => Fin.ext (by match a with | ⟨0, _⟩ => rfl | ⟨1, _⟩ => rfl)

/-- The product's left factor at `(i, j)`, term `k`, is the query cloud at `(i, k)`. -/
private theorem idx_dotl1 (i j : Fin 8192) (k : Fin 3) :
    Read.lidx_main_v10 (ix2 i j) k = ix2 i k :=
  funext fun a => Fin.ext (by match a with | ⟨0, _⟩ => rfl | ⟨1, _⟩ => rfl)

/-- The product's right factor at `(i, j)`, term `k`, is the transposed cloud at `(k, j)`: the cloud at `(j, k)`. -/
private theorem idx_dotr1 (i j : Fin 8192) (k : Fin 3) :
    Read.idx_main_v9 (Read.ridx_main_v10 (ix2 i j) k) = ix2 j k :=
  funext fun a => Fin.ext (by match a with | ⟨0, _⟩ => rfl | ⟨1, _⟩ => rfl)

/-- The second pass reads its indices as the first does, with the two clouds exchanged. -/
private theorem idx_row2 (i j : Fin 8192) (k : Fin 3) :
    Read.idx_main_v19 (Read.idx_main_v20 (Read.idx_main_v24 (ix2 i j))) k = ix2 i k :=
  funext fun a => Fin.ext (by match a with | ⟨0, _⟩ => rfl | ⟨1, _⟩ => rfl)

private theorem idx_col2 (i j : Fin 8192) (k : Fin 3) :
    Read.idx_main_v22 (Read.idx_main_v23 (Read.idx_main_v25 (ix2 i j))) k = ix2 j k :=
  funext fun a => Fin.ext (by match a with | ⟨0, _⟩ => rfl | ⟨1, _⟩ => rfl)

private theorem idx_dotl2 (i j : Fin 8192) (k : Fin 3) :
    Read.lidx_main_v28 (ix2 i j) k = ix2 i k :=
  funext fun a => Fin.ext (by match a with | ⟨0, _⟩ => rfl | ⟨1, _⟩ => rfl)

private theorem idx_dotr2 (i j : Fin 8192) (k : Fin 3) :
    Read.idx_main_v27 (Read.ridx_main_v28 (ix2 i j) k) = ix2 j k :=
  funext fun a => Fin.ext (by match a with | ⟨0, _⟩ => rfl | ⟨1, _⟩ => rfl)

/-! ## The clamped squared distances -/

/-- First pass: the clamped squared distance from point `i` of `pred` to point `j` of `real`. -/
theorem d2_first (x0 x1 : (⟨S8192x3, .f32⟩ : BufTy).Contents (Elt Ideal)) (i j : Fin 8192) :
    Read.val_main_v15 (F := Ideal) x0 x1 (ix2 i j) = refD2 x1 x0 i j := by
  rw [Read.val_main_v15_apply, Read.val_main_v13_apply, Read.val_main_v8_apply, Read.val_main_v12_apply,
    Read.val_main_v6_apply, Read.val_main_v2_apply, Read.val_main_v1_apply,
    Read.val_main_v7_apply, Read.val_main_v5_apply, Read.val_main_v4_apply,
    Read.val_main_v11_apply, Read.val_main_cst_1_apply, Read.val_main_v10_apply,
    Read.val_main_v14_apply, Read.val_main_cst_2_apply, Read.val_main_cst_apply, Read.val_main_cst_0_apply]
  simp only [idx_row1, idx_col1, idx_dotl1, Read.val_main_v0_apply, Read.val_main_v3_apply, Read.val_main_v9_apply,
    idx_dotr1, Ideal.addf_def, Ideal.subf_def, Ideal.mulf_def, Ideal.maximumf_def, Ideal.ofBits_def]
  have h0 : Ideal.ofBits .f32 0x00000000#32 = (0 : EReal) := cZero_eq
  rw [h0, zero_add, zero_add]
  rfl

/-- Second pass: the clamped squared distance from point `i` of `real` to point `j` of `pred`. -/
theorem d2_second (x0 x1 : (⟨S8192x3, .f32⟩ : BufTy).Contents (Elt Ideal)) (i j : Fin 8192) :
    Read.val_main_v33 (F := Ideal) x0 x1 (ix2 i j) = refD2 x0 x1 i j := by
  rw [Read.val_main_v33_apply, Read.val_main_v31_apply, Read.val_main_v26_apply, Read.val_main_v30_apply,
    Read.val_main_v24_apply, Read.val_main_v20_apply, Read.val_main_v19_apply,
    Read.val_main_v25_apply, Read.val_main_v23_apply, Read.val_main_v22_apply,
    Read.val_main_v29_apply, Read.val_main_cst_6_apply, Read.val_main_v28_apply,
    Read.val_main_v32_apply, Read.val_main_cst_7_apply, Read.val_main_cst_4_apply, Read.val_main_cst_5_apply]
  simp only [idx_row2, idx_col2, idx_dotl2, Read.val_main_v18_apply, Read.val_main_v21_apply, Read.val_main_v27_apply,
    idx_dotr2, Ideal.addf_def, Ideal.subf_def, Ideal.mulf_def, Ideal.maximumf_def, Ideal.ofBits_def]
  have h0 : Ideal.ofBits .f32 0x00000000#32 = (0 : EReal) := cZero_eq
  rw [h0, zero_add, zero_add]
  rfl

/-! ## The minimum over the other cloud, and its square root -/

/-- A reduced index `i` with the coordinate `k` of the reduced axis put back is `(i, k)`. -/
private theorem lift_row (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- From +∞ the minimum reduction along a row is the fold of `min` over the row's 8192 entries. -/
private theorem hostMin_row (y : FVec Ideal S8192x8192 .f32) (init : FVec Ideal S_ .f32)
    (hinit : init (Shape.Idx.first h_S_) = cInf) (i : Fin 8192) :
    Host.reduce (FloatOps.minimumf (F := Ideal) (φ := .f32)) y init reducesTo_S8192x8192_S8192_d1 h_S_ (ix1 i)
      = (Finset.univ : Finset (Fin 8192)).fold min cInf fun j => y (ix2 i j) := by
  have h : S8192x8192.Reduces [1] S8192 := by decide
  rw [Host.reduce_eq_fold_single FloatOps.minimumf y _ reducesTo_S8192x8192_S8192_d1 h h_S_, hinit]
  have hf : (y ∘ h.lift (ix1 i)) = fun k : Fin 8192 => y (ix2 i k) := funext fun k => congrArg y (lift_row h i k)
  exact congrArg (fun f => Finset.fold min cInf f (Finset.univ : Finset (Fin 8192))) hf

/-- First pass: the nearest-neighbour distance of point `i` of `pred` in `real`. -/
theorem nn_first (x0 x1 : (⟨S8192x3, .f32⟩ : BufTy).Contents (Elt Ideal)) (i : Fin 8192) :
    Read.val_main_v17 (F := Ideal) x0 x1 (ix1 i) = refNN x1 x0 i := by
  rw [Read.val_main_v17_apply, Ideal.hostUnary_sqrt_def]
  unfold refNN
  refine congrArg Ideal.sqrt ?_
  refine (hostMin_row (Read.val_main_v15 (F := Ideal) x0 x1) (Read.val_main_cst_3 (F := Ideal)) rfl i).trans ?_
  exact congrArg (fun f => Finset.fold min cInf f (Finset.univ : Finset (Fin 8192))) (funext fun j => d2_first x0 x1 i j)

/-- Second pass: the nearest-neighbour distance of point `i` of `real` in `pred`. -/
theorem nn_second (x0 x1 : (⟨S8192x3, .f32⟩ : BufTy).Contents (Elt Ideal)) (i : Fin 8192) :
    Read.val_main_v35 (F := Ideal) x0 x1 (ix1 i) = refNN x0 x1 i := by
  rw [Read.val_main_v35_apply, Ideal.hostUnary_sqrt_def]
  unfold refNN
  refine congrArg Ideal.sqrt ?_
  refine (hostMin_row (Read.val_main_v33 (F := Ideal) x0 x1) (Read.val_main_cst_8 (F := Ideal)) rfl i).trans ?_
  exact congrArg (fun f => Finset.fold min cInf f (Finset.univ : Finset (Fin 8192))) (funext fun j => d2_second x0 x1 i j)

/-- A sum over the indices of a vector of 8192 entries is the sum over its coordinate. -/
private theorem sum_idx1 (f : S8192.Idx → EReal) : ∑ j, f j = ∑ i : Fin 8192, f (ix1 i) :=
  (Equiv.sum_comp (idxEquiv1 (n := 8192)).symm f).symm

/-- The reference's result word: `x0` is the cloud `real` (the program's first argument), `x1` is `pred`. -/
theorem ref_eq (x0 x1 : (⟨S8192x3, .f32⟩ : BufTy).Contents (Elt Ideal)) :
    Cert.ReferenceIdeal.Read.val_main_v39 (F := Ideal) x0 x1 = fun _ => refTotal x0 x1 := by
  funext i
  rw [Read.val_main_v39_apply, Read.val_main_v38_apply, Read.val_main_v36_apply, Read.val_main_v37_apply,
    Read.val_main_cst_9_apply, Read.val_main_cst_10_apply, Read.val_main_cst_11_apply, sum_idx1, sum_idx1]
  simp only [nn_first, nn_second, Ideal.hostDivf_def, Ideal.addf_def, Ideal.ofBits_def]
  rfl

end Cert.ReferenceIdeal.RefValue

end
-- ==== Proof.Bridge.lean ====
/-
  The kernel's arrangement of the computation equals the reference's, on finite clouds.

  Four facts carry it. (1) For real coordinates the kernel's `(−2·p)·r + |r|² + |p|²` and the reference's
  `(|p|² + |r|²) − 2·(p·r)` are one real number. (2) Adding a real number, and clamping from below, pass through a
  minimum that starts at `⊤`. (3) The minimum over all 8192 points is the minimum of the minima over the two
  halves, and over the four tiles. (4) The sum over all 8192 rows is the sum, over the 2048 positions in a tile,
  of the four rows at that position.
-/
import proofs.«143169_g26491358282344_cont_9to1_1100_12_alg».proof.Proof.Spec
import proofs.«143169_g26491358282344_cont_9to1_1100_12_alg».proof.Proof.Consts
import Mathlib.Data.EReal.Operations
import Mathlib.Data.Finset.Fold
import Mathlib.Algebra.BigOperators.Fin
import Mathlib.Tactic.Ring
import Mathlib.Tactic.FinCases

noncomputable section

namespace Cert.Spec

open Idealize.ShloMosaic Idealize.ShloMosaic.ValueIdx

namespace Bridge

/-! ## (1) One squared distance, over real coordinates -/

/-- The index set of a cloud. -/
abbrev CIdx : Type := (⟨2, ![8192, 3]⟩ : Shape).Idx

/-- The cloud whose coordinates are the real numbers `p`. -/
def ofReal (p : CIdx → ℝ) : Cloud := fun x => ((p x : ℝ) : EReal)

/-- A cloud of real coordinates is `ofReal` of them. -/
theorem eq_ofReal (x : Cloud) (hx : ∀ i, ∃ a : ℝ, x i = (a : EReal)) : ∃ p : CIdx → ℝ, x = ofReal p := by
  choose p hp using hx
  exact ⟨p, funext hp⟩

/-- The squared norm of a real point is a real number. -/
theorem sq_coe (p : CIdx → ℝ) (i : Fin 8192) :
    sq (ofReal p) i = ((p (ix2 i 0) * p (ix2 i 0) + p (ix2 i 1) * p (ix2 i 1) + p (ix2 i 2) * p (ix2 i 2) : ℝ) : EReal) := by
  simp only [sq, ofReal, Fin.sum_univ_three, EReal.coe_mul, EReal.coe_add]

/-- The inner product of two real points is a real number. -/
theorem dot_coe (p r : CIdx → ℝ) (i j : Fin 8192) :
    dot (ofReal p) (ofReal r) i j
      = ((p (ix2 i 0) * r (ix2 j 0) + p (ix2 i 1) * r (ix2 j 1) + p (ix2 i 2) * r (ix2 j 2) : ℝ) : EReal) := by
  simp only [dot, ofReal, Fin.sum_univ_three, EReal.coe_mul, EReal.coe_add]

/-- The product `(−2·p)·r` of two real points is a real number. -/
theorem cross_coe (p r : CIdx → ℝ) (i j : Fin 8192) :
    cross (ofReal p) (ofReal r) i j
      = (((-2 * p (ix2 i 0)) * r (ix2 j 0) + (-2 * p (ix2 i 1)) * r (ix2 j 1)
          + (-2 * p (ix2 i 2)) * r (ix2 j 2) : ℝ) : EReal) := by
  simp only [cross, ofReal, Fin.sum_univ_three, cNegTwo_eq, EReal.coe_mul, EReal.coe_add]

/-- Row direction: `(−2·p)·r + |r|² + |p|² = (|p|² + |r|²) − 2·(p·r)`. -/
theorem dist_row (p r : CIdx → ℝ) (i j : Fin 8192) :
    (cross (ofReal p) (ofReal r) i j + sq (ofReal r) j) + sq (ofReal p) i = (sq (ofReal p) i + sq (ofReal r) j) - cTwo * dot (ofReal p) (ofReal r) i j := by
  rw [cross_coe, sq_coe, sq_coe, dot_coe, cTwo_eq, ← EReal.coe_add, ← EReal.coe_add, ← EReal.coe_add,
    ← EReal.coe_mul, ← EReal.coe_sub]
  exact congrArg _ (by ring)

/-- Column direction: `(−2·p)·r + |p|² + |r|² = (|r|² + |p|²) − 2·(r·p)`; the inner product commutes. -/
theorem dist_col (p r : CIdx → ℝ) (i j : Fin 8192) :
    (cross (ofReal p) (ofReal r) i j + sq (ofReal p) i) + sq (ofReal r) j = (sq (ofReal r) j + sq (ofReal p) i) - cTwo * dot (ofReal r) (ofReal p) j i := by
  rw [cross_coe, sq_coe, sq_coe, dot_coe, cTwo_eq, ← EReal.coe_add, ← EReal.coe_add, ← EReal.coe_add,
    ← EReal.coe_mul, ← EReal.coe_sub]
  exact congrArg _ (by ring)

/-- The squared norm of a real point is not `⊥`. -/
theorem sq_ne_bot (p : CIdx → ℝ) (i : Fin 8192) : sq (ofReal p) i ≠ ⊥ := by
  rw [sq_coe]; exact EReal.coe_ne_bot _

/-! ## (2) A minimum under a monotone map -/

/-- Adding a constant on the right passes through a minimum. -/
theorem fold_min_add {ι : Type} (s : Finset ι) (b : EReal) (f : ι → EReal) (c : EReal) :
    s.fold min b f + c = s.fold min (b + c) (fun x => f x + c) :=
  (Finset.fold_hom (op := min) (op' := min) (m := fun y : EReal => y + c) (f := f) (b := b) (s := s)
    (fun _ _ => Monotone.map_min (f := fun y : EReal => y + c) (fun _ _ h => add_le_add h le_rfl))).symm

/-- Clamping from below passes through a minimum. -/
theorem fold_min_max {ι : Type} (s : Finset ι) (b : EReal) (f : ι → EReal) (e : EReal) :
    max (s.fold min b f) e = s.fold min (max b e) (fun x => max (f x) e) :=
  (Finset.fold_hom (op := min) (op' := min) (m := fun y : EReal => max y e) (f := f) (b := b) (s := s)
    (fun _ _ => Monotone.map_min (f := fun y : EReal => max y e) (fun _ _ h => max_le_max h le_rfl))).symm

/-- Adding a number other than `⊥` and then clamping, through a minimum that starts at `⊤`. -/
theorem clamp_add_fold_top {ι : Type} (s : Finset ι) (f : ι → EReal) (c e : EReal) (hc : c ≠ ⊥) :
    max (s.fold min ⊤ f + c) e = s.fold min ⊤ (fun x => max (f x + c) e) := by
  rw [fold_min_add, EReal.top_add_of_ne_bot hc, fold_min_max, max_top_left]

/-! ## (3) The minimum over all points, by halves and by tiles -/

/-- A lower bound of a minimum over a whole finite type that starts at `⊤` is a lower bound of every term. -/
theorem le_fold_top {ι : Type} [Fintype ι] (f : ι → EReal) (c : EReal) :
    c ≤ (Finset.univ : Finset ι).fold min ⊤ f ↔ ∀ x, c ≤ f x := by
  rw [Finset.le_fold_min]
  simp only [le_top, true_and, Finset.mem_univ, forall_true_left]

/-- Every column is column `l` of half `h`, for `h` the quotient and `l` the remainder by 4096. -/
theorem exists_colIx (j : Fin 8192) : ∃ h l, j = colIx h l :=
  ⟨⟨j.val / 4096, by have := j.isLt; omega⟩, ⟨j.val % 4096, Nat.mod_lt _ (by norm_num)⟩,
    Fin.ext (by simp only [colIx]; omega)⟩

/-- Every row is row `k` of tile `t`, for `t` the quotient and `k` the remainder by 2048. -/
theorem exists_rowIx (i : Fin 8192) : ∃ t k, i = rowIx t k :=
  ⟨⟨i.val / 2048, by have := i.isLt; omega⟩, ⟨i.val % 2048, Nat.mod_lt _ (by norm_num)⟩,
    Fin.ext (by simp only [rowIx]; omega)⟩

/-- A property of all columns is a property of the columns of each half. -/
theorem forall_cols (P : Fin 8192 → Prop) :
    (∀ j, P j) ↔ (∀ l, P (colIx 0 l)) ∧ (∀ l, P (colIx 1 l)) := by
  constructor
  · intro h; exact ⟨fun l => h _, fun l => h _⟩
  · rintro ⟨h0, h1⟩ j
    obtain ⟨h, l, rfl⟩ := exists_colIx j
    fin_cases h
    · exact h0 l
    · exact h1 l

/-- A property of all rows is a property of the rows of each tile. -/
theorem forall_rows (P : Fin 8192 → Prop) :
    (∀ i, P i) ↔ (((∀ k, P (rowIx 0 k)) ∧ (∀ k, P (rowIx 1 k))) ∧ (∀ k, P (rowIx 2 k))) ∧ (∀ k, P (rowIx 3 k)) := by
  constructor
  · intro h; exact ⟨⟨⟨fun k => h _, fun k => h _⟩, fun k => h _⟩, fun k => h _⟩
  · rintro ⟨⟨⟨h0, h1⟩, h2⟩, h3⟩ i
    obtain ⟨t, k, rfl⟩ := exists_rowIx i
    fin_cases t
    · exact h0 k
    · exact h1 k
    · exact h2 k
    · exact h3 k

/-- The minimum over all columns is the minimum of the minima over the two halves. -/
theorem fold_halves (f : Fin 8192 → EReal) :
    min ((Finset.univ : Finset (Fin 4096)).fold min ⊤ fun l => f (colIx 0 l))
        ((Finset.univ : Finset (Fin 4096)).fold min ⊤ fun l => f (colIx 1 l))
      = (Finset.univ : Finset (Fin 8192)).fold min ⊤ f := by
  refine eq_of_forall_le_iff fun c => ?_
  rw [le_min_iff, le_fold_top, le_fold_top, le_fold_top]
  exact (forall_cols fun j => c ≤ f j).symm

/-- The minimum over all rows is the running minimum of the minima over the four tiles. -/
theorem fold_tiles (f : Fin 8192 → EReal) :
    min (min (min ((Finset.univ : Finset (Fin 2048)).fold min ⊤ fun k => f (rowIx 0 k))
                  ((Finset.univ : Finset (Fin 2048)).fold min ⊤ fun k => f (rowIx 1 k)))
             ((Finset.univ : Finset (Fin 2048)).fold min ⊤ fun k => f (rowIx 2 k)))
        ((Finset.univ : Finset (Fin 2048)).fold min ⊤ fun k => f (rowIx 3 k))
      = (Finset.univ : Finset (Fin 8192)).fold min ⊤ f := by
  refine eq_of_forall_le_iff fun c => ?_
  rw [le_min_iff, le_min_iff, le_min_iff, le_fold_top, le_fold_top, le_fold_top, le_fold_top, le_fold_top]
  exact (forall_rows fun i => c ≤ f i).symm

/-! ## The two nearest-neighbour distances -/

/-- Row `i`: the kernel's nearest-neighbour distance is the reference's. -/
theorem kerRow_eq_refNN (p r : CIdx → ℝ) (i : Fin 8192) :
    kerRow (ofReal p) (ofReal r) i = refNN (ofReal p) (ofReal r) i := by
  unfold kerRow refNN
  refine congrArg Ideal.sqrt ?_
  have hmin : min (kerRowHalf (ofReal p) (ofReal r) i 0) (kerRowHalf (ofReal p) (ofReal r) i 1)
      = (Finset.univ : Finset (Fin 8192)).fold min ⊤ fun j => cross (ofReal p) (ofReal r) i j + sq (ofReal r) j := by
    unfold kerRowHalf
    rw [cInf_eq]
    exact fold_halves fun j => cross (ofReal p) (ofReal r) i j + sq (ofReal r) j
  rw [hmin, clamp_add_fold_top _ _ _ _ (sq_ne_bot p i), cInf_eq]
  refine Finset.fold_congr fun j _ => ?_
  unfold refD2
  rw [dist_row]

/-- One tile's column minimum with the column's norm added, as a minimum of sums. -/
theorem kerColTile_eq (p r : CIdx → ℝ) (t : Fin 4) (j : Fin 8192) :
    kerColTile (ofReal p) (ofReal r) t j = (Finset.univ : Finset (Fin 2048)).fold min ⊤ fun k =>
      (cross (ofReal p) (ofReal r) (rowIx t k) j + sq (ofReal p) (rowIx t k)) + sq (ofReal r) j := by
  unfold kerColTile
  rw [cInf_eq, fold_min_add, EReal.top_add_of_ne_bot (sq_ne_bot r j)]

/-- Column `j`: the kernel's nearest-neighbour distance is the reference's, taken in the other direction. -/
theorem kerCol_eq_refNN (p r : CIdx → ℝ) (j : Fin 8192) :
    kerCol (ofReal p) (ofReal r) j = refNN (ofReal r) (ofReal p) j := by
  unfold kerCol refNN
  refine congrArg Ideal.sqrt ?_
  rw [kerColTile_eq, kerColTile_eq, kerColTile_eq, kerColTile_eq,
    fold_tiles fun i => (cross (ofReal p) (ofReal r) i j + sq (ofReal p) i) + sq (ofReal r) j, fold_min_max, max_top_left, cInf_eq]
  refine Finset.fold_congr fun i _ => ?_
  unfold refD2
  rw [dist_col]

/-! ## (4) The row sums, tile by tile -/

/-- Position `k` of tile `t` against the row `2048·t + k`: a bijection, with quotient and remainder as inverse. -/
def tileEquiv : Fin 4 × Fin 2048 ≃ Fin 8192 where
  toFun q := rowIx q.1 q.2
  invFun i := (⟨i.val / 2048, by have := i.isLt; omega⟩, ⟨i.val % 2048, Nat.mod_lt _ (by norm_num)⟩)
  left_inv := by
    rintro ⟨t, k⟩
    have := t.isLt
    have := k.isLt
    refine Prod.ext (Fin.ext ?_) (Fin.ext ?_)
    · simp only [rowIx]; omega
    · simp only [rowIx]; omega
  right_inv i := Fin.ext (by simp only [rowIx]; omega)

/-- The sum over the 2048 positions of the four rows at each position is the sum over all rows. -/
theorem sum_tiles (f : Fin 8192 → EReal) :
    ∑ k : Fin 2048, (((f (rowIx 0 k) + f (rowIx 1 k)) + f (rowIx 2 k)) + f (rowIx 3 k)) = ∑ i : Fin 8192, f i := by
  rw [← Equiv.sum_comp tileEquiv f, Fintype.sum_prod_type, Fin.sum_univ_four, Finset.sum_add_distrib,
    Finset.sum_add_distrib, Finset.sum_add_distrib]
  rfl

end Bridge

/-! ## The totals -/

open Bridge in
/-- On clouds all of whose coordinates are real numbers, the kernel's total is the reference's. -/
theorem kerTotal_eq_refTotal (real pred : Cloud) (hr : ∀ i, ∃ x : ℝ, real i = (x : EReal))
    (hp : ∀ i, ∃ x : ℝ, pred i = (x : EReal)) : kerTotal real pred = refTotal real pred := by
  obtain ⟨r, rfl⟩ := eq_ofReal real hr
  obtain ⟨p, rfl⟩ := eq_ofReal pred hp
  unfold kerTotal refTotal
  have hacc : (fun k => kerAcc (ofReal p) (ofReal r) k) = fun k =>
      ((kerRow (ofReal p) (ofReal r) (rowIx 0 k) + kerRow (ofReal p) (ofReal r) (rowIx 1 k))
          + kerRow (ofReal p) (ofReal r) (rowIx 2 k))
        + kerRow (ofReal p) (ofReal r) (rowIx 3 k) := rfl
  rw [hacc, sum_tiles (kerRow (ofReal p) (ofReal r)), cZero_eq, zero_add, zero_add]
  simp only [kerRow_eq_refNN, kerCol_eq_refNN]

end Cert.Spec

end
-- ==== Proof.Finite.lean ====
/-
  The precondition says every coordinate of both clouds is a real number.
-/
import proofs.«143169_g26491358282344_cont_9to1_1100_12_alg».proof.Proof.Gen.Pre_finite_inputs
import proofs.«143169_g26491358282344_cont_9to1_1100_12_alg».proof.Proof.Spec
import proofs.«143169_g26491358282344_cont_9to1_1100_12_alg».proof.Proof.Consts
import Idealize.ShloMosaic.Lib.ReduceAll

noncomputable section

namespace Cert.Finite

open Idealize.ShloMosaic Idealize.ShloMosaic.ValueIdx Cert.Spec

/-- The shape of rank zero has exactly one index. -/
instance : Subsingleton Cert.Pre_finite_inputs.S_.Idx := ⟨fun a b => funext fun d => d.elim0⟩

/-- An extended real whose absolute value `max a (-a)` lies below `⊤` is a real number:
    at `⊥` and at `⊤` that maximum is `⊤` itself. -/
theorem real_of_abs_lt_top (a : EReal) (h : max a (-a) < ⊤) : ∃ r : ℝ, a = (r : EReal) := by
  induction a using EReal.rec with
  | bot => simp at h
  | coe r => exact ⟨r, rfl⟩
  | top => simp at h

/-- A one-bit word read off a truth value is one only where the truth value is true. -/
theorem ofBool_eq_one {b : Bool} (h : BitVec.ofBool b = 1#1) : b = true := by
  cases b
  · exact absurd h (by decide)
  · rfl

/-- One element of the comparison `|x| < +inf` being one says that element of `x` is a real number:
    the comparison's right side is the scalar `+inf` read at every index, its left side `max (x i) (-(x i))`. -/
theorem real_of_cmp (x : Cloud) (hb : Cert.Pre_finite_inputs.S_.BroadcastsInDim Cert.Pre_finite_inputs.S8192x3 ![])
    (i : Cert.Pre_finite_inputs.S8192x3.Idx)
    (e : cmpf (F := Ideal) .olt (Host.absf x)
      (broadcastInDim Cert.Pre_finite_inputs.S8192x3 ![] hb (constant Cert.Pre_finite_inputs.S_ .f32 0x7F800000#32)) i = 1#1) :
    ∃ r : ℝ, x i = (r : EReal) := by
  have e' : BitVec.ofBool (decide (max (x i) (-(x i)) < cInf)) = 1#1 := e
  rw [cInf_eq] at e'
  exact real_of_abs_lt_top (x i) (of_decide_eq_true (ofBool_eq_one e'))

/-- Where the printed precondition evaluates to all ones at the ideal instance, both clouds are finite. -/
theorem finite_of_pre (x0 x1 : Cloud)
    (h : Cert.Pre_finite_inputs.fn (F := Ideal) x0 x1 = fun _ => 1#1) :
    (∀ i, ∃ r : ℝ, x0 i = (r : EReal)) ∧ (∀ i, ∃ r : ℝ, x1 i = (r : EReal)) := by
  -- the one result word is the conjunction of the two clouds' "all elements below +inf"
  have h0 := congrFun h ValueIdx.ix0
  dsimp only [Cert.Pre_finite_inputs.fn] at h0
  obtain ⟨ha, hb⟩ := IntOp.andi_eq_one.1 h0
  -- a conjunction over every index that is one had a one at each index
  exact ⟨fun i => real_of_cmp x0 _ i (Host.reduce_andi_all _ _ _ _ ix0 ha i),
    fun i => real_of_cmp x1 _ i (Host.reduce_andi_all _ _ _ _ ix0 hb i)⟩

end Cert.Finite

end
-- ==== Proof.lean ====
/-
  The average symmetric surface distance of two clouds of 8192 points: the sum over both clouds of each point's
  distance to its nearest neighbour in the other cloud, divided by 16384, where a squared distance
  `|p|² + |r|² − 2·(p·r)` is clamped from below before the square root.

  The reference forms the full 8192 × 8192 matrix of clamped squared distances twice, once per direction, and takes
  the row minima. The kernel forms it once, tile by tile (four tiles of 2048 rows, two halves of 4096 columns), takes
  the row minima and the column minima of the same tile, clamps after minimising, and carries the column minima and
  the partial sums of the row distances from one tile to the next. On finite inputs the two are the same extended
  real: addition of a finite number and the clamp are monotone and fix +∞, so they commute with a minimum; a minimum
  over all columns is the minimum of the minima over the halves (and over all rows, of the tiles); the product
  `(−2·p)·r` is `−2·(p·r)` and the three terms of a squared distance may be added in either order; and the sum of
  the 2048 partial sums is the sum over all 8192 rows.

  The frames of the two kernel programs are the generated ones; the reference's is its generated run. The kernel's
  value is read off the generated frame step by step; the reference's off its generated run one operation at a time.
-/
import proofs.«143169_g26491358282344_cont_9to1_1100_12_alg».proof.Defs
import proofs.«143169_g26491358282344_cont_9to1_1100_12_alg».proof.Proof.Gen.Kernel
import proofs.«143169_g26491358282344_cont_9to1_1100_12_alg».proof.Proof.Gen.Kernel.Frame
import proofs.«143169_g26491358282344_cont_9to1_1100_12_alg».proof.Proof.Gen.KernelIdeal
import proofs.«143169_g26491358282344_cont_9to1_1100_12_alg».proof.Proof.Gen.KernelIdeal.Frame
import proofs.«143169_g26491358282344_cont_9to1_1100_12_alg».proof.Proof.Gen.ReferenceIdeal
import proofs.«143169_g26491358282344_cont_9to1_1100_12_alg».proof.Proof.Gen.ReferenceIdeal.Run
import proofs.«143169_g26491358282344_cont_9to1_1100_12_alg».proof.Proof.Gen.ReferenceIdeal.Read
import proofs.«143169_g26491358282344_cont_9to1_1100_12_alg».proof.Proof.Gen.Pre_finite_inputs
import proofs.«143169_g26491358282344_cont_9to1_1100_12_alg».proof.Proof.KFinal
import proofs.«143169_g26491358282344_cont_9to1_1100_12_alg».proof.Proof.RefValue
import proofs.«143169_g26491358282344_cont_9to1_1100_12_alg».proof.Proof.Bridge
import proofs.«143169_g26491358282344_cont_9to1_1100_12_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same scalar: the kernel's total of the two clouds, which on finite clouds is the
    reference's total. -/
theorem algebraic : Cert.algebraic_KernelIdeal_ReferenceIdeal := by
  intro m ρ m' ρ' hpre hagree
  refine ⟨fun c => fun _ => Cert.Spec.kerTotal (Cert.KernelIdeal.KValue.real m c) (Cert.KernelIdeal.KValue.pred m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v39_eq (F := Ideal) _ _).trans ?_
  rw [Cert.ReferenceIdeal.RefValue.ref_eq, (hagree c).1, (hagree c).2]
  funext _
  have hfin := Cert.Finite.finite_of_pre _ _ (hpre c)
  exact (Cert.Spec.kerTotal_eq_refTotal _ _ hfin.1 hfin.2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
